-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S4x64x512 : Shape := ⟨3, ![4, 64, 512]⟩
abbrev S1024x1024 : Shape := ⟨2, ![1024, 1024]⟩
abbrev S1024 : Shape := ⟨1, ![1024]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x64x512 : S_.BroadcastsInDim S4x64x512 (![] : Fin 0 → Fin S4x64x512.rank)
  reducesTo_S4x64x512_S_d0_1_2 : S4x64x512.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x256x512 .f32) (main_arg1 : FVec F S4x64x512 .f32) (main_arg2 : FVec F S1024x1024 .f32) (main_arg3 : FVec F S1024 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x64x512 .f32 := Host.absf main_arg1
  let main_cst_0 : FVec F S_ .f32 := constant S_ .f32 0x7F800000#32
  let main_v5 : FVec F S4x64x512 .f32 := broadcastInDim S4x64x512 ![] bcast_S_S4x64x512 main_cst_0
  let main_v6 : IVec S4x64x512 1 := cmpf .olt main_v4 main_v5
  let main_c_1 : IVec S_ 1 := constantI S_ 1 1#1
  let main_v7 : IVec S_ 1 := (fun x v => Host.reduce IntOp.andi x v reducesTo_S4x64x512_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x256x512 : Shape := ⟨3, ![4, 256, 512]⟩
abbrev S4x64x512 : Shape := ⟨3, ![4, 64, 512]⟩
abbrev S1024x1024 : Shape := ⟨2, ![1024, 1024]⟩
abbrev S1024 : Shape := ⟨1, ![1024]⟩
abbrev S1024x512 : Shape := ⟨2, ![1024, 512]⟩
abbrev S256x512 : Shape := ⟨2, ![256, 512]⟩
abbrev S512x1024 : Shape := ⟨2, ![512, 1024]⟩
abbrev S128x512 : Shape := ⟨2, ![128, 512]⟩
abbrev S128x1024 : Shape := ⟨2, ![128, 1024]⟩
abbrev S256x1024 : Shape := ⟨2, ![256, 1024]⟩
abbrev S4x256x1024 : Shape := ⟨3, ![4, 256, 1024]⟩
abbrev S4x64x1024 : Shape := ⟨3, ![4, 64, 1024]⟩
abbrev S1x1x1x1024 : Shape := ⟨4, ![1, 1, 1, 1024]⟩
abbrev S4x256x64x1024 : Shape := ⟨4, ![4, 256, 64, 1024]⟩
abbrev S1x32x1024 : Shape := ⟨3, ![1, 32, 1024]⟩
abbrev S1x32x32x1024 : Shape := ⟨4, ![1, 32, 32, 1024]⟩
abbrev S1x32x1x1024 : Shape := ⟨4, ![1, 32, 1, 1024]⟩
abbrev S1x1x32x1024 : Shape := ⟨4, ![1, 1, 32, 1024]⟩
abbrev S1x32x32 : Shape := ⟨3, ![1, 32, 32]⟩
abbrev S1x32x32x1 : Shape := ⟨4, ![1, 32, 32, 1]⟩

abbrev nBuf : Space → Nat
  | .hbm => 16
  | .vmem => 17
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S1024x1024, .f32⟩
  | .hbm, ⟨3, _⟩ => ⟨S1024, .f32⟩
  | .hbm, ⟨4, _⟩ => ⟨S1024x512, .f32⟩
  | .hbm, ⟨5, _⟩ => ⟨S256x512, .f32⟩
  | .hbm, ⟨6, _⟩ => ⟨S1024x512, .f32⟩
  | .hbm, ⟨7, _⟩ => ⟨S1024x512, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S256x1024, .f32⟩
  | .hbm, ⟨12, _⟩ => ⟨S4x256x1024, .f32⟩
  | .hbm, ⟨13, _⟩ => ⟨S4x64x1024, .f32⟩
  | .hbm, ⟨14, _⟩ => ⟨S1x1x1x1024, .f32⟩
  | .hbm, ⟨15, _⟩ => ⟨S4x256x64x1024, .f32⟩
  | .local _ .vmem, ⟨0, _⟩ => ⟨S128x512, .f32⟩
  | .local _ .vmem, ⟨1, _⟩ => ⟨S128x512, .f32⟩
  | .local _ .vmem, ⟨2, _⟩ => ⟨S512x1024, .f32⟩
  | .local _ .vmem, ⟨3, _⟩ => ⟨S128x1024, .f32⟩
  | .local _ .vmem, ⟨4, _⟩ => ⟨S128x1024, .f32⟩
  | .local _ .vmem, ⟨5, _⟩ => ⟨S128x512, .f32⟩
  | .local _ .vmem, ⟨6, _⟩ => ⟨S128x512, .f32⟩
  | .local _ .vmem, ⟨7, _⟩ => ⟨S512x1024, .f32⟩
  | .local _ .vmem, ⟨8, _⟩ => ⟨S128x1024, .f32⟩
  | .local _ .vmem, ⟨9, _⟩ => ⟨S128x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x1x1x1024, .f32⟩
  | .local _ .vmem, ⟨15, _⟩ => ⟨S1x32x32x1024, .f32⟩
  | .local _ .vmem, ⟨16, _⟩ => ⟨S1x32x32x1024, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨3, ![4, 8, 2], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_3 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage2_0 : Fin 2 → Memref sig .tc .vmem S1x32x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x32x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 1 → Memref sig .tc .vmem S1x1x1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false, false]

abbrev stage2_3 : Fin 2 → Memref sig .tc .vmem S1x32x32x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

class Facts₀ : Prop where
  shapeCasts_S4x256x512_S1024x512 : S4x256x512.ShapeCasts S1024x512
  shapeCasts_S4x64x512_S256x512 : S4x64x512.ShapeCasts S256x512
  slices_S1024x1024_S1024x512_0_0 : S1024x1024.Slices ![0, 0] S1024x512
  slices_S1024x1024_S1024x512_0_512 : S1024x1024.Slices ![0, 512] S1024x512
  transposes_S1024x512_S512x1024_1_0 : S1024x512.Transposes [1, 0] S512x1024
  inb_S128x512_S128x512_0_0 : ∀ a, (![0, 0] : Fin 2 → Nat) a + S128x512.size a ≤ S128x512.size a
  h_S128x512 : 0 < S128x512.numel
  shapeCasts_S128x512_S128x512 : S128x512.ShapeCasts S128x512
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S128x1024_S128x1024_0_0 : ∀ a, (![0, 0] : Fin 2 → Nat) a + S128x1024.size a ≤ S128x1024.size a
  h_S128x1024 : 0 < S128x1024.numel
  shapeCasts_S1024x1024_S4x256x1024 : S1024x1024.ShapeCasts S4x256x1024
  shapeCasts_S256x1024_S4x64x1024 : S256x1024.ShapeCasts S4x64x1024
  shapeCasts_S1024_S1x1x1x1024 : S1024.ShapeCasts S1x1x1x1024
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S1x32x1024 : S1x32x1024.ShapeCasts S1x32x1024
  inb_S1x1x1x1024_S1x1x1x1024_0_0_0_0 : ∀ a, (![0, 0, 0, 0] : Fin 4 → Nat) a + S1x1x1x1024.size a ≤ S1x1x1x1024.size a
  h_S1x1x1x1024 : 0 < S1x1x1x1024.numel
  shapeCasts_S1x1x1x1024_S1x1x1x1024 : S1x1x1x1024.ShapeCasts S1x1x1x1024
  shapeCasts_S1x32x1024_S1x32x1x1024 : S1x32x1024.ShapeCasts S1x32x1x1024
  shapeCasts_S1x32x1024_S1x1x32x1024 : S1x32x1024.ShapeCasts S1x1x32x1024
  broadcasts_S1x32x1x1024_S1x32x32x1024 : S1x32x1x1024.Broadcasts S1x32x32x1024
  broadcasts_S1x1x32x1024_S1x32x32x1024 : S1x1x32x1024.Broadcasts S1x32x32x1024
  broadcasts_S1x1x1x1024_S1x32x32x1024 : S1x1x1x1024.Broadcasts S1x32x32x1024
  reduces_S1x32x32x1024_S1x32x32 : S1x32x32x1024.Reduces [3] S1x32x32
  shapeCasts_S1x32x32_S1x32x32x1 : S1x32x32.ShapeCasts S1x32x32x1
  broadcasts_S1x32x32x1_S1x32x32x1024 : S1x32x32x1.Broadcasts S1x32x32x1024
  inb_S1x32x32x1024_S1x32x32x1024_0_0_0_0 : ∀ a, (![0, 0, 0, 0] : Fin 4 → Nat) a + S1x32x32x1024.size a ≤ S1x32x32x1024.size a
  h_S1x32x32x1024 : 0 < S1x32x32x1024.numel
  dot_S128x512_S512x1024_S128x1024_1_0_0_1_n_n_wf : DotDims.WF S128x512 S512x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S1024x512.size a
  hwx0_0 : ∀ i : grid0.Coords, EltTy.bits .f32 = 32 ∨ (Rect.block (s := S1024x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S1024x1024.size a
  hwx0_2 : ∀ i : grid0.Coords, EltTy.bits .f32 = 32 ∨ (Rect.block (s := S1024x1024) S128x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x512.size a ≤ S256x512.size a
  hwx1_0 : ∀ i : grid1.Coords, EltTy.bits .f32 = 32 ∨ (Rect.block (s := S256x512) S128x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S512x1024.size a
  hwx1_1 : ∀ i : grid1.Coords, EltTy.bits .f32 = 32 ∨ (Rect.block (s := S512x1024) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1024.size a ≤ S256x1024.size a
  hwx1_2 : ∀ i : grid1.Coords, EltTy.bits .f32 = 32 ∨ (Rect.block (s := S256x1024) S128x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x32x1024.size a ≤ S4x256x1024.size a
  hwx2_0 : ∀ i : grid2.Coords, EltTy.bits .f32 = 32 ∨ (Rect.block (s := S4x256x1024) S1x32x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x32x1024.size a ≤ S4x64x1024.size a
  hwx2_1 : ∀ i : grid2.Coords, EltTy.bits .f32 = 32 ∨ (Rect.block (s := S4x64x1024) S1x32x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1x1x1024.size a ≤ S1x1x1x1024.size a
  hwx2_2 : ∀ i : grid2.Coords, EltTy.bits .f32 = 32 ∨ (Rect.block (s := S1x1x1x1024) S1x1x1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x32x32x1024.size a ≤ S4x256x64x1024.size a
  hwx2_3 : ∀ i : grid2.Coords, EltTy.bits .f32 = 32 ∨ (Rect.block (s := S4x256x64x1024) S1x32x32x1024.size (cc2_transform_3 i) (hinb2_3 i)).WholeWords (EltTy.packing .f32)

variable [Facts₀]

def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf

abbrev win0_0 : Pipeline.Window sig grid0 :=
  Pipeline.Window.ofSpec (Memref.whole main_v0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S512x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S128x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v8) S1x32x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1x32x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x1x1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1x32x32x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x256x512 : Shape := ⟨3, ![4, 256, 512]⟩
abbrev S4x64x512 : Shape := ⟨3, ![4, 64, 512]⟩
abbrev S1024x1024 : Shape := ⟨2, ![1024, 1024]⟩
abbrev S1024 : Shape := ⟨1, ![1024]⟩
abbrev S1024x512 : Shape := ⟨2, ![1024, 512]⟩
abbrev S4x256x1024 : Shape := ⟨3, ![4, 256, 1024]⟩
abbrev S4x64x1024 : Shape := ⟨3, ![4, 64, 1024]⟩
abbrev S4x256x1x1024 : Shape := ⟨4, ![4, 256, 1, 1024]⟩
abbrev S4x1x64x1024 : Shape := ⟨4, ![4, 1, 64, 1024]⟩
abbrev S4x256x64x1024 : Shape := ⟨4, ![4, 256, 64, 1024]⟩
abbrev S1x1x1x1024 : Shape := ⟨4, ![1, 1, 1, 1024]⟩
abbrev S_ : Shape := ⟨0, ![]⟩
abbrev S4x256x64 : Shape := ⟨3, ![4, 256, 64]⟩
abbrev S4x256x64x1 : Shape := ⟨4, ![4, 256, 64, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S1024x1024, .f32⟩
  | .hbm, ⟨3, _⟩ => ⟨S1024, .f32⟩
  | .hbm, ⟨4, _⟩ => ⟨S1024x512, .f32⟩
  | .hbm, ⟨5, _⟩ => ⟨S1024x512, .f32⟩
  | .hbm, ⟨6, _⟩ => ⟨S4x256x1024, .f32⟩
  | .hbm, ⟨7, _⟩ => ⟨S4x64x1024, .f32⟩
  | .hbm, ⟨8, _⟩ => ⟨S4x256x1x1024, .f32⟩
  | .hbm, ⟨9, _⟩ => ⟨S4x1x64x1024, .f32⟩
  | .hbm, ⟨10, _⟩ => ⟨S4x256x64x1024, .f32⟩
  | .hbm, ⟨11, _⟩ => ⟨S4x256x64x1024, .f32⟩
  | .hbm, ⟨12, _⟩ => ⟨S4x256x64x1024, .f32⟩
  | .hbm, ⟨13, _⟩ => ⟨S1x1x1x1024, .f32⟩
  | .hbm, ⟨14, _⟩ => ⟨S4x256x64x1024, .f32⟩
  | .hbm, ⟨15, _⟩ => ⟨S4x256x64x1024, .f32⟩
  | .hbm, ⟨16, _⟩ => ⟨S_, .f32⟩
  | .hbm, ⟨17, _⟩ => ⟨S4x256x64, .f32⟩
  | .hbm, ⟨18, _⟩ => ⟨S_, .f32⟩
  | .hbm, ⟨19, _⟩ => ⟨S4x256x64, .f32⟩
  | .hbm, ⟨20, _⟩ => ⟨S4x256x64, .f32⟩
  | .hbm, ⟨21, _⟩ => ⟨S4x256x64x1, .f32⟩
  | .hbm, ⟨22, _⟩ => ⟨S4x256x64x1024, .f32⟩
  | .hbm, ⟨23, _⟩ => ⟨S4x256x64x1024, .f32⟩
  | .hbm, ⟨24, _⟩ => ⟨S4x256x64x1024, .f32⟩
  | .hbm, ⟨25, _⟩ => ⟨S_, .f32⟩
  | .hbm, ⟨26, _⟩ => ⟨S4x256x64, .f32⟩
  | .hbm, ⟨27, _⟩ => ⟨S4x256x64x1, .f32⟩
  | .hbm, ⟨28, _⟩ => ⟨S4x256x64x1, .f32⟩
  | .hbm, ⟨29, _⟩ => ⟨S4x256x64x1024, .f32⟩
  | .hbm, ⟨30, _⟩ => ⟨S4x256x64x1024, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_cst : Ref sig .tc := ⟨.hbm, 16, rfl⟩
abbrev main_call0_v0 : Ref sig .tc := ⟨.hbm, 17, rfl⟩
abbrev main_call0_cst_0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_cst_1 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_v12 : Ref sig .tc := ⟨.hbm, 30, rfl⟩

abbrev nD : Nat := 1
abbrev τ : Topo := Topo.v7x

variable {F : FTy → Type} [FloatOps F]

class Facts₀ : Prop where
  slices_S1024x1024_S1024x512_0_0 : S1024x1024.Slices ![0, 0] S1024x512
  slices_S1024x1024_S1024x512_0_512 : S1024x1024.Slices ![0, 512] S1024x512
  bcast_S4x256x1024_S4x256x1x1024_0_1_3 : S4x256x1024.BroadcastsInDim S4x256x1x1024 (![0, 1, 3] : Fin 3 → Fin S4x256x1x1024.rank)
  bcast_S4x64x1024_S4x1x64x1024_0_2_3 : S4x64x1024.BroadcastsInDim S4x1x64x1024 (![0, 2, 3] : Fin 3 → Fin S4x1x64x1024.rank)
  bcast_S4x256x1x1024_S4x256x64x1024_0_1_2_3 : S4x256x1x1024.BroadcastsInDim S4x256x64x1024 (![0, 1, 2, 3] : Fin 4 → Fin S4x256x64x1024.rank)
  bcast_S4x1x64x1024_S4x256x64x1024_0_1_2_3 : S4x1x64x1024.BroadcastsInDim S4x256x64x1024 (![0, 1, 2, 3] : Fin 4 → Fin S4x256x64x1024.rank)
  bcast_S1024_S1x1x1x1024_3 : S1024.BroadcastsInDim S1x1x1x1024 (![3] : Fin 1 → Fin S1x1x1x1024.rank)
  bcast_S1x1x1x1024_S4x256x64x1024_0_1_2_3 : S1x1x1x1024.BroadcastsInDim S4x256x64x1024 (![0, 1, 2, 3] : Fin 4 → Fin S4x256x64x1024.rank)
  reducesTo_S4x256x64x1024_S4x256x64_d3 : S4x256x64x1024.ReducesTo [3] S4x256x64
  h_S_ : 0 < S_.numel
  bcast_S_S4x256x64 : S_.BroadcastsInDim S4x256x64 (![] : Fin 0 → Fin S4x256x64.rank)
  bcast_S4x256x64_S4x256x64x1_0_1_2 : S4x256x64.BroadcastsInDim S4x256x64x1 (![0, 1, 2] : Fin 3 → Fin S4x256x64x1.rank)
  bcast_S4x256x64x1_S4x256x64x1024_0_1_2_3 : S4x256x64x1.BroadcastsInDim S4x256x64x1024 (![0, 1, 2, 3] : Fin 4 → Fin S4x256x64x1024.rank)
  dot_S4x256x512_S1024x512_S4x256x1024_2_1_01_0_n_n_wf : DotDims.WF S4x256x512 S1024x512 S4x256x1024 [2] [1] [0, 1] [0] [] []
  dot_S4x64x512_S1024x512_S4x64x1024_2_1_01_0_n_n_wf : DotDims.WF S4x64x512 S1024x512 S4x64x1024 [2] [1] [0, 1] [0] [] []

variable [Facts₀]

def dot_S4x256x512_S1024x512_S4x256x1024_2_1_01_0_n_n : DotDims S4x256x512 S1024x512 S4x256x1024 where
  lhsContracting := [2]
  rhsContracting := [1]
  lhsNonContracting := [0, 1]
  rhsNonContracting := [0]
  lhsBatch := []
  rhsBatch := []
  wf := dot_S4x256x512_S1024x512_S4x256x1024_2_1_01_0_n_n_wf
def dot_S4x64x512_S1024x512_S4x64x1024_2_1_01_0_n_n : DotDims S4x64x512 S1024x512 S4x64x1024 where
  lhsContracting := [2]
  rhsContracting := [1]
  lhsNonContracting := [0, 1]
  rhsNonContracting := [0]
  lhsBatch := []
  rhsBatch := []
  wf := dot_S4x64x512_S1024x512_S4x64x1024_2_1_01_0_n_n_wf

class Facts : Prop extends Facts₀ where

variable [Facts]
-- ==== Proof.Spec.lean ====
/-
  The value both programs compute, stated once over the extended reals.

  With x : [4, 256, 512], y : [4, 64, 512], W : [1024, 1024] and b : [1024], write W = [W₁ | W₂] for its left and right
  512 columns. The encoder projection is e[β, t, v] = Σ_k x[β, t, k] · W[v, k], the decoder projection is
  d[β, u, v] = Σ_k y[β, u, k] · W[v, 512 + k] (k over 512 entries), the logits are
  L[β, t, u, v] = (e[β, t, v] + d[β, u, v]) + b[v], and the result is the log-softmax of L along its last axis:
  with M the maximum of the row L[β, t, u, ·] taken from -∞, the entry at v is
  (L[v] - M) - log (Σ_k exp (L[k] - M)).

  Two intermediate forms are named as well, because the kernel reaches the result in three launches: a plain product of an
  [M, 512] matrix with a [512, 1024] matrix (`matProd`), and the row-wise log-softmax of the broadcast sum of an
  [4, 256, 1024] array, a [4, 64, 1024] array and a [1, 1, 1, 1024] row (`logSoftmaxOfSum`).
-/
import Idealize.ShloMosaic.PureOps.Ideal
import Idealize.ShloMosaic.Lib.ValueIdx
import Mathlib.Data.Finset.Fold

noncomputable section

namespace Cert.Spec

open Idealize.ShloMosaic Idealize.ShloMosaic.ValueIdx

/-- -∞, as the f32 pattern from which both programs start a row's maximum. -/
abbrev negInf : EReal := Ideal.ofBits .f32 0xFF800000#32

/-- The maximum of a row of 1024 extended reals, taken from -∞. -/
def rowMax (row : Fin 1024 → EReal) : EReal := (Finset.univ : Finset (Fin 1024)).fold max negInf row

/-- The log-softmax of one row of 1024 logits at the entry `v`: the shifted logit minus the logarithm of the sum of the
    exponentials of the shifted row. -/
def logSoftmaxRow (row : Fin 1024 → EReal) (v : Fin 1024) : EReal :=
  (row v - rowMax row) - Ideal.log (∑ k : Fin 1024, Ideal.exp (row k - rowMax row))

/-- The product of an [M, 512] matrix with a [512, 1024] matrix: entry (r, v) is Σ_k x[r, k] · w[k, v]. -/
def matProd {M : Nat} (x : (⟨2, ![M, 512]⟩ : Shape).Idx → EReal) (w : (⟨2, ![512, 1024]⟩ : Shape).Idx → EReal) :
    (⟨2, ![M, 1024]⟩ : Shape).Idx → EReal :=
  fun i => ∑ k : Fin 512, x (ix2 (n0 := M) (n1 := 512) (i 0) k) * w (ix2 (n0 := 512) (n1 := 1024) k (i 1))

/-- The row-wise log-softmax of (e[β, t, ·] + d[β, u, ·]) + r[0, 0, 0, ·] at (β, t, u, v). -/
def logSoftmaxOfSum (e : (⟨3, ![4, 256, 1024]⟩ : Shape).Idx → EReal) (d : (⟨3, ![4, 64, 1024]⟩ : Shape).Idx → EReal)
    (r : (⟨4, ![1, 1, 1, 1024]⟩ : Shape).Idx → EReal) : (⟨4, ![4, 256, 64, 1024]⟩ : Shape).Idx → EReal :=
  fun i => logSoftmaxRow (fun v : Fin 1024 =>
      (e (ix3 (n0 := 4) (n1 := 256) (n2 := 1024) (i 0) (i 1) v) + d (ix3 (n0 := 4) (n1 := 64) (n2 := 1024) (i 0) (i 2) v))
        + r (ix4 (n0 := 1) (n1 := 1) (n2 := 1) (n3 := 1024) 0 0 0 v)) (i 3)

/-- The encoder projection: e[β, t, v] = Σ_k x[β, t, k] · W[v, k]. -/
def encProj (x : (⟨3, ![4, 256, 512]⟩ : Shape).Idx → EReal) (W : (⟨2, ![1024, 1024]⟩ : Shape).Idx → EReal) :
    (⟨3, ![4, 256, 1024]⟩ : Shape).Idx → EReal :=
  fun i => ∑ k : Fin 512, x (ix3 (n0 := 4) (n1 := 256) (n2 := 512) (i 0) (i 1) k)
    * W (ix2 (n0 := 1024) (n1 := 1024) (i 2) ⟨k.val, by have := k.isLt; omega⟩)

/-- The decoder projection: d[β, u, v] = Σ_k y[β, u, k] · W[v, 512 + k]. -/
def decProj (y : (⟨3, ![4, 64, 512]⟩ : Shape).Idx → EReal) (W : (⟨2, ![1024, 1024]⟩ : Shape).Idx → EReal) :
    (⟨3, ![4, 64, 1024]⟩ : Shape).Idx → EReal :=
  fun i => ∑ k : Fin 512, y (ix3 (n0 := 4) (n1 := 64) (n2 := 512) (i 0) (i 1) k)
    * W (ix2 (n0 := 1024) (n1 := 1024) (i 2) ⟨512 + k.val, by have := k.isLt; omega⟩)

/-- The bias as a [1, 1, 1, 1024] row. -/
def biasRow (b : (⟨1, ![1024]⟩ : Shape).Idx → EReal) : (⟨4, ![1, 1, 1, 1024]⟩ : Shape).Idx → EReal :=
  fun i => b (ix1 (n := 1024) (i 3))

/-- THE RESULT: the log-softmax along the last axis of (x · W₁ᵀ)[β, t, ·] + (y · W₂ᵀ)[β, u, ·] + b. -/
def result (x : (⟨3, ![4, 256, 512]⟩ : Shape).Idx → EReal) (y : (⟨3, ![4, 64, 512]⟩ : Shape).Idx → EReal)
    (W : (⟨2, ![1024, 1024]⟩ : Shape).Idx → EReal) (b : (⟨1, ![1024]⟩ : Shape).Idx → EReal) :
    (⟨4, ![4, 256, 64, 1024]⟩ : Shape).Idx → EReal :=
  logSoftmaxOfSum (encProj x W) (decProj y W) (biasRow b)

/-- A maximum taken from -∞ is not below -∞, so taking its maximum with -∞ once more changes nothing. -/
theorem max_negInf_rowMax (row : Fin 1024 → EReal) : max negInf (rowMax row) = rowMax row :=
  max_eq_right ((Finset.le_fold_max _).mpr (Or.inl le_rfl))

end Cert.Spec

end
-- ==== Proof.MatmulRegions.lean ====
/-
  What the two projection launches leave in their result arrays, at the extended reals.

  Each launch walks the rows of its left operand in tiles of 128: at tile t it multiplies rows 128·t … 128·t + 127 of the
  [M, 512] operand by the whole [512, 1024] operand and writes the product to the same rows of the [M, 1024] result
  (M = 1024 in 8 tiles for the encoder, M = 256 in 2 tiles for the decoder). The narrowing of both operands before the
  product is the identity on the extended reals, and the product is accumulated from zero, so entry (r, v) of a tile is
  Σ_k x[r, k] · w[k, v] over the 512 contracted entries; the tiles cover every row, so the result array is the plain
  product of the two arrays as the launch finds them.
-/
import proofs.«163983_j14903536517746_1_alg».proof.Proof.Gen.KernelIdeal.Frame
import proofs.«163983_j14903536517746_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## One tile's product, entry by entry -/

/-- The tile product keeps the result's row: the left operand is read in row `i 0`. -/
theorem tileDot_lhs_row (i : S128x1024.Idx) (q : dot_S128x512_S512x1024_S128x1024_1_0_0_1_n_n.contr.Idx) :
    (dot_S128x512_S512x1024_S128x1024_1_0_0_1_n_n.lhsIdx i q 0).val = (i 0).val := by
  unfold DotDims.lhsIdx
  rw [dif_neg (show ¬(0 : Fin S128x512.rank) ∈ dot_S128x512_S512x1024_S128x1024_1_0_0_1_n_n.lhsBatch by decide), dif_pos (show (0 : Fin S128x512.rank) ∈ dot_S128x512_S512x1024_S128x1024_1_0_0_1_n_n.lhsNonContracting by decide)]
  rfl
/-- The left operand's column is the contracted entry. -/
theorem tileDot_lhs_col (i : S128x1024.Idx) (q : dot_S128x512_S512x1024_S128x1024_1_0_0_1_n_n.contr.Idx) :
    (dot_S128x512_S512x1024_S128x1024_1_0_0_1_n_n.lhsIdx i q 1).val = (q ⟨0, by decide⟩).val :=
  dot_S128x512_S512x1024_S128x1024_1_0_0_1_n_n.lhsIdx_val_of_single rfl i q
/-- The right operand's row is the contracted entry. -/
theorem tileDot_rhs_row (i : S128x1024.Idx) (q : dot_S128x512_S512x1024_S128x1024_1_0_0_1_n_n.contr.Idx) :
    (dot_S128x512_S512x1024_S128x1024_1_0_0_1_n_n.rhsIdx i q 0).val = (q ⟨0, by decide⟩).val :=
  dot_S128x512_S512x1024_S128x1024_1_0_0_1_n_n.rhsIdx_val_of_single rfl i q
/-- The right operand is read in the result's column `i 1`. -/
theorem tileDot_rhs_col (i : S128x1024.Idx) (q : dot_S128x512_S512x1024_S128x1024_1_0_0_1_n_n.contr.Idx) :
    (dot_S128x512_S512x1024_S128x1024_1_0_0_1_n_n.rhsIdx i q 1).val = (i 1).val := by
  unfold DotDims.rhsIdx
  rw [dif_neg (show ¬(1 : Fin S512x1024.rank) ∈ dot_S128x512_S512x1024_S128x1024_1_0_0_1_n_n.rhsBatch by decide), dif_pos (show (1 : Fin S512x1024.rank) ∈ dot_S128x512_S512x1024_S128x1024_1_0_0_1_n_n.rhsNonContracting by decide)]
  rfl

/-- Entry (p, q) of a tile's product: narrowing to bf16 changes nothing at the extended reals and the accumulator starts
    at zero, so what is left is Σ_k x[p, k] · w[k, q] over the 512 contracted entries. -/
theorem tileProduct_apply (x : Vec Ideal S128x512 .f32) (w : Vec Ideal S512x1024 .f32) (p : Fin 128) (q : Fin 1024) :
    k0_pay1 (F := Ideal) x w (ix2 p q) = ∑ k : Fin 512, x (ix2 p k) * w (ix2 k q) := by
  unfold k0_pay1
  simp only [matmul]
  rw [Ideal.matmul_constant_zero_apply, ← Equiv.sum_comp (contrEquiv1 dot_S128x512_S512x1024_S128x1024_1_0_0_1_n_n 512 rfl rfl).symm]
  refine Finset.sum_congr rfl fun k _ => ?_
  have hk := contrEquiv1_symm_val dot_S128x512_S512x1024_S128x1024_1_0_0_1_n_n 512 rfl rfl k
  have el : dot_S128x512_S512x1024_S128x1024_1_0_0_1_n_n.lhsIdx (ix2 p q) ((contrEquiv1 dot_S128x512_S512x1024_S128x1024_1_0_0_1_n_n 512 rfl rfl).symm k) = ix2 p k := funext fun a => Fin.ext (by
    match a with
    | ⟨0, _⟩ => exact tileDot_lhs_row _ _
    | ⟨1, _⟩ => exact (tileDot_lhs_col _ _).trans hk)
  have er : dot_S128x512_S512x1024_S128x1024_1_0_0_1_n_n.rhsIdx (ix2 p q) ((contrEquiv1 dot_S128x512_S512x1024_S128x1024_1_0_0_1_n_n 512 rfl rfl).symm k) = ix2 k q := funext fun a => Fin.ext (by
    match a with
    | ⟨0, _⟩ => exact (tileDot_rhs_row _ _).trans hk
    | ⟨1, _⟩ => exact tileDot_rhs_col _ _)
  rw [el, er, truncf_apply, truncf_apply, shapeCast_self, shapeCast_self]

/-- The second launch's tile product is the same term. -/
theorem tileProduct1_apply (x : Vec Ideal S128x512 .f32) (w : Vec Ideal S512x1024 .f32) (p : Fin 128) (q : Fin 1024) :
    k1_pay1 (F := Ideal) x w (ix2 p q) = ∑ k : Fin 512, x (ix2 p k) * w (ix2 k q) :=
  tileProduct_apply x w p q

/-! ## The first launch: from tiles to the whole product -/

/-- The offsets of a whole-buffer access are all zero. -/
theorem zeroOffsets : (![0, 0] : Fin 2 → Nat) = fun _ => 0 :=
  funext fun a => match a with | ⟨0, _⟩ => rfl | ⟨1, _⟩ => rfl

/-- Where the tiles sit, decided over the 8 points: at point `t` the left operand's tile and the result's tile are the
    `t`-th row tile (and the only column tile), and the right operand is taken whole. -/
theorem tileIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is tile `t` of the product of the two arrays as the launch finds them. -/
theorem tile0_written (c : Dev nD) (t : Fin cfg0.N) :
    (dat0 (F := Ideal) V c).flushed 2 t
      = ((cfg0.win 2).blk t).view.read (Elt Ideal) (Cert.Spec.matProd (M := 1024) (V c main_v0) (V c main_v4)) := by
  show (cfg0.win 2).cut (grid0.coords t) ((dat0 (F := Ideal) V c).after 2 t) = _
  rw [after0_2]
  unfold out0_2
  rw [View.canon_unit_zero zeroOffsets]
  simp only [View.ld_unit_zero (S := S128x512) zeroOffsets, View.ld_unit_zero (S := S512x1024) zeroOffsets]
  obtain ⟨e0, e1, e2, e3, e4, e5⟩ := tileIndex0 t
  funext j
  obtain ⟨p, q, rfl⟩ : ∃ (p : Fin 128) (q : Fin 1024), j = ix2 p q := ⟨j 0, j 1, eq_ix2 j⟩
  show k0_pay1 (F := Ideal) (iblk0 V c 0 t) (iblk0 V c 1 t) (ix2 p q)
    = Cert.Spec.matProd (M := 1024) (V c main_v0) (V c main_v4) (((cfg0.win 2).blk t).view.emb (ix2 p q))
  refine (tileProduct_apply _ _ p q).trans ?_
  unfold Cert.Spec.matProd
  refine Finset.sum_congr rfl fun k _ => ?_
  have hx : ((cfg0.win 0).blk t).view.emb (ix2 p k) = ix2 ((((cfg0.win 2).blk t).view.emb (ix2 p q)) 0) k := by
    funext a; apply Fin.ext
    match a with
    | ⟨0, _⟩ => show win0_0.index t (0 : Fin 2) * 128 + 1 * p.val = win0_2.index t (0 : Fin 2) * 128 + 1 * p.val; omega
    | ⟨1, _⟩ => show win0_0.index t (1 : Fin 2) * 512 + 1 * k.val = k.val; omega
  have hw : ((cfg0.win 1).blk t).view.emb (ix2 k q) = ix2 k ((((cfg0.win 2).blk t).view.emb (ix2 p q)) 1) := by
    funext a; apply Fin.ext
    match a with
    | ⟨0, _⟩ => show win0_1.index t (0 : Fin 2) * 512 + 1 * k.val = k.val; omega
    | ⟨1, _⟩ => show win0_1.index t (1 : Fin 2) * 1024 + 1 * q.val = win0_2.index t (1 : Fin 2) * 1024 + 1 * q.val; omega
  have hl : iblk0 V c 0 t (ix2 p k) = V c main_v0 (ix2 ((((cfg0.win 2).blk t).view.emb (ix2 p q)) 0) k) :=
    congrArg (V c main_v0) hx
  have hr : iblk0 V c 1 t (ix2 k q) = V c main_v4 (ix2 k ((((cfg0.win 2).blk t).view.emb (ix2 p q)) 1)) :=
    congrArg (V c main_v4) hw
  rw [hl, hr]

/-- An entry of the result array is in point `t`'s tile iff each coordinate is in the tile's range on its axis. -/
theorem mem_tile0 (t : Fin cfg0.N) (i : S1024x1024.Idx) :
    i ∈ ((cfg0.win 2).blk t).view.set ↔ ∀ a : Fin 2, win0_2.index t a * S128x1024.size a ≤ (i a).val ∧ (i a).val < win0_2.index t a * S128x1024.size a + S128x1024.size a := by
  show i ∈ ((View.whole main_v6).slice (win0_2.rect t)).set ↔ _
  rw [View.set_slice_whole, Rect.mem_set_unit]
  exact Iff.rfl

/-- Every entry of the result array lies in the tile of the point its row selects, row / 128. -/
theorem tiles0_cover (i : S1024x1024.Idx) :
    ∃ t : Fin cfg0.N, (cfg0.win 2).flush t = true ∧ i ∈ ((cfg0.win 2).blk t).view.set := by
  have hi0 : (i 0).val < 1024 := (i 0).isLt
  have hi1 : (i 1).val < 1024 := (i 1).isLt
  have hN := N_0
  let t : Fin cfg0.N := ⟨(i 0).val / 128, by show (i 0).val / 128 < grid0.N; omega⟩
  obtain ⟨e0, e1, e2, e3, e4, e5⟩ := tileIndex0 t
  have ht : t.val = (i 0).val / 128 := rfl
  refine ⟨t, flush0_2 t, ?_⟩
  rw [mem_tile0]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 1024 ≤ (i 1).val ∧ (i 1).val < win0_2.index t (1 : Fin 2) * 1024 + 1024; omega

/-- The encoder projection's launch: from any contents `V` of the buffers at its entry, its result array ends at the
    product of the [1024, 512] array `main_v0` and the [512, 1024] array `main_v4`. -/
theorem region0_result (c : Dev nD) :
    (dat0 (F := Ideal) V c).arrAt 2 cfg0.N = Cert.Spec.matProd (M := 1024) (V c main_v0) (V c main_v4) :=
  (dat0 (F := Ideal) V c).arrAt_eq_of_cover 2 _ (fun t _ => tile0_written V c t) tiles0_cover

/-! ## The second launch: the same road over 2 tiles -/

/-- Where the tiles sit, decided over the 2 points: at point `t` the left operand's tile and the result's tile are the
    `t`-th row tile (and the only column tile), and the right operand is taken whole. -/
theorem tileIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is tile `t` of the product of the two arrays as the launch finds them. -/
theorem tile1_written (c : Dev nD) (t : Fin cfg1.N) :
    (dat1 (F := Ideal) V c).flushed 2 t
      = ((cfg1.win 2).blk t).view.read (Elt Ideal) (Cert.Spec.matProd (M := 256) (V c main_v1) (V c main_v5)) := by
  show (cfg1.win 2).cut (grid1.coords t) ((dat1 (F := Ideal) V c).after 2 t) = _
  rw [after1_2]
  unfold out1_2
  rw [View.canon_unit_zero zeroOffsets]
  simp only [View.ld_unit_zero (S := S128x512) zeroOffsets, View.ld_unit_zero (S := S512x1024) zeroOffsets]
  obtain ⟨e0, e1, e2, e3, e4, e5⟩ := tileIndex1 t
  funext j
  obtain ⟨p, q, rfl⟩ : ∃ (p : Fin 128) (q : Fin 1024), j = ix2 p q := ⟨j 0, j 1, eq_ix2 j⟩
  show k1_pay1 (F := Ideal) (iblk1 V c 0 t) (iblk1 V c 1 t) (ix2 p q)
    = Cert.Spec.matProd (M := 256) (V c main_v1) (V c main_v5) (((cfg1.win 2).blk t).view.emb (ix2 p q))
  refine (tileProduct1_apply _ _ p q).trans ?_
  unfold Cert.Spec.matProd
  refine Finset.sum_congr rfl fun k _ => ?_
  have hx : ((cfg1.win 0).blk t).view.emb (ix2 p k) = ix2 ((((cfg1.win 2).blk t).view.emb (ix2 p q)) 0) k := by
    funext a; apply Fin.ext
    match a with
    | ⟨0, _⟩ => show win1_0.index t (0 : Fin 2) * 128 + 1 * p.val = win1_2.index t (0 : Fin 2) * 128 + 1 * p.val; omega
    | ⟨1, _⟩ => show win1_0.index t (1 : Fin 2) * 512 + 1 * k.val = k.val; omega
  have hw : ((cfg1.win 1).blk t).view.emb (ix2 k q) = ix2 k ((((cfg1.win 2).blk t).view.emb (ix2 p q)) 1) := by
    funext a; apply Fin.ext
    match a with
    | ⟨0, _⟩ => show win1_1.index t (0 : Fin 2) * 512 + 1 * k.val = k.val; omega
    | ⟨1, _⟩ => show win1_1.index t (1 : Fin 2) * 1024 + 1 * q.val = win1_2.index t (1 : Fin 2) * 1024 + 1 * q.val; omega
  have hl : iblk1 V c 0 t (ix2 p k) = V c main_v1 (ix2 ((((cfg1.win 2).blk t).view.emb (ix2 p q)) 0) k) :=
    congrArg (V c main_v1) hx
  have hr : iblk1 V c 1 t (ix2 k q) = V c main_v5 (ix2 k ((((cfg1.win 2).blk t).view.emb (ix2 p q)) 1)) :=
    congrArg (V c main_v5) hw
  rw [hl, hr]

/-- An entry of the result array is in point `t`'s tile iff each coordinate is in the tile's range on its axis. -/
theorem mem_tile1 (t : Fin cfg1.N) (i : S256x1024.Idx) :
    i ∈ ((cfg1.win 2).blk t).view.set ↔ ∀ a : Fin 2, win1_2.index t a * S128x1024.size a ≤ (i a).val ∧ (i a).val < win1_2.index t a * S128x1024.size a + S128x1024.size a := by
  show i ∈ ((View.whole main_v7).slice (win1_2.rect t)).set ↔ _
  rw [View.set_slice_whole, Rect.mem_set_unit]
  exact Iff.rfl

/-- Every entry of the result array lies in the tile of the point its row selects, row / 128. -/
theorem tiles1_cover (i : S256x1024.Idx) :
    ∃ t : Fin cfg1.N, (cfg1.win 2).flush t = true ∧ i ∈ ((cfg1.win 2).blk t).view.set := by
  have hi0 : (i 0).val < 256 := (i 0).isLt
  have hi1 : (i 1).val < 1024 := (i 1).isLt
  have hN := N_1
  let t : Fin cfg1.N := ⟨(i 0).val / 128, by show (i 0).val / 128 < grid1.N; omega⟩
  obtain ⟨e0, e1, e2, e3, e4, e5⟩ := tileIndex1 t
  have ht : t.val = (i 0).val / 128 := rfl
  refine ⟨t, flush1_2 t, ?_⟩
  rw [mem_tile1]
  intro a
  match a with
  | ⟨0, _⟩ => show win1_2.index t (0 : Fin 2) * 128 ≤ (i 0).val ∧ (i 0).val < win1_2.index t (0 : Fin 2) * 128 + 128; omega
  | ⟨1, _⟩ => show win1_2.index t (1 : Fin 2) * 1024 ≤ (i 1).val ∧ (i 1).val < win1_2.index t (1 : Fin 2) * 1024 + 1024; omega

/-- The decoder projection's launch: its result array ends at the product of the [256, 512] array `main_v1` and the
    [512, 1024] array `main_v5`. -/
theorem region1_result (c : Dev nD) :
    (dat1 (F := Ideal) V c).arrAt 2 cfg1.N = Cert.Spec.matProd (M := 256) (V c main_v1) (V c main_v5) :=
  (dat1 (F := Ideal) V c).arrAt_eq_of_cover 2 _ (fun t _ => tile1_written V c t) tiles1_cover

end Cert.KernelIdeal.RegionValue

end
-- ==== Proof.SoftmaxRegion.lean ====
/-
  What the log-softmax launch leaves in its result array, at the extended reals.

  The launch walks a 4 × 8 × 2 grid: at (β, p, q) it reads rows 32·p … 32·p + 31 of e[β], rows 32·q … 32·q + 31 of d[β]
  and the one row r, forms the 32 × 32 × 1024 block of logits (e[β, t, ·] + d[β, u, ·]) + r, and for every (t, u) takes
  the row's maximum from -∞, subtracts it, exponentiates, sums, takes the logarithm and subtracts it from the shifted
  logits. Every step acts inside one row of 1024 entries, so a block entry is the row-wise log-softmax of the broadcast
  sum at that entry, whatever the tile; the blocks cover the [4, 256, 64, 1024] result.
-/
import proofs.«163983_j14903536517746_1_alg».proof.Proof.Gen.KernelIdeal.Frame
import proofs.«163983_j14903536517746_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## The layout steps of the body, each read at an index -/

/-- A [1, 32, 1024] block viewed as [1, 32, 1, 1024] reads (0, t, b, v) at (0, t, v). -/
theorem cast_encRows (x : S1x32x1024.Idx → EReal) (h : S1x32x1024.ShapeCasts S1x32x1x1024) (t : Fin 32) (b : Fin 1) (v : Fin 1024) :
    shapeCast S1x32x1x1024 x h (ix4 (0 : Fin 1) t b v) = x (ix3 (0 : Fin 1) t v) :=
  shapeCast_apply x h _ _ (by
    have hb : b.val = 0 := by omega
    rw [Shape.rowMajor_val_three, Shape.rowMajor_val_four]
    show (0 * 32 + t.val) * 1024 + v.val = ((0 * 32 + t.val) * 1 + b.val) * 1024 + v.val
    omega)

/-- A [1, 32, 1024] block viewed as [1, 1, 32, 1024] reads (0, b, u, v) at (0, u, v). -/
theorem cast_decRows (x : S1x32x1024.Idx → EReal) (h : S1x32x1024.ShapeCasts S1x1x32x1024) (b : Fin 1) (u : Fin 32) (v : Fin 1024) :
    shapeCast S1x1x32x1024 x h (ix4 (0 : Fin 1) b u v) = x (ix3 (0 : Fin 1) u v) :=
  shapeCast_apply x h _ _ (by
    have hb : b.val = 0 := by omega
    rw [Shape.rowMajor_val_three, Shape.rowMajor_val_four]
    show (0 * 32 + u.val) * 1024 + v.val = ((0 * 1 + b.val) * 32 + u.val) * 1024 + v.val
    omega)

/-- The encoder rows repeated along the third axis: (0, t, u, v) reads (0, t, 0, v). -/
theorem bcast_encRows (x : S1x32x1x1024.Idx → EReal) (h : S1x32x1x1024.Broadcasts S1x32x32x1024) (t u : Fin 32) (v : Fin 1024) :
    broadcastTo S1x32x32x1024 x h (ix4 (0 : Fin 1) t u v) = x (ix4 (0 : Fin 1) t (0 : Fin 1) v) :=
  broadcastTo_apply x h _ _ fun ax => match ax with
    | ⟨0, _⟩ => rfl
    | ⟨1, _⟩ => rfl
    | ⟨2, _⟩ => rfl
    | ⟨3, _⟩ => rfl

/-- The decoder rows repeated along the second axis: (0, t, u, v) reads (0, 0, u, v). -/
theorem bcast_decRows (x : S1x1x32x1024.Idx → EReal) (h : S1x1x32x1024.Broadcasts S1x32x32x1024) (t u : Fin 32) (v : Fin 1024) :
    broadcastTo S1x32x32x1024 x h (ix4 (0 : Fin 1) t u v) = x (ix4 (0 : Fin 1) (0 : Fin 1) u v) :=
  broadcastTo_apply x h _ _ fun ax => match ax with
    | ⟨0, _⟩ => rfl
    | ⟨1, _⟩ => rfl
    | ⟨2, _⟩ => rfl
    | ⟨3, _⟩ => rfl

/-- The one bias row repeated over the whole tile: (0, t, u, v) reads (0, 0, 0, v). -/
theorem bcast_biasRow (x : S1x1x1x1024.Idx → EReal) (h : S1x1x1x1024.Broadcasts S1x32x32x1024) (t u : Fin 32) (v : Fin 1024) :
    broadcastTo S1x32x32x1024 x h (ix4 (0 : Fin 1) t u v) = x (ix4 (0 : Fin 1) (0 : Fin 1) (0 : Fin 1) v) :=
  broadcastTo_apply x h _ _ fun ax => match ax with
    | ⟨0, _⟩ => rfl
    | ⟨1, _⟩ => rfl
    | ⟨2, _⟩ => rfl
    | ⟨3, _⟩ => rfl

/-- A per-row quantity [1, 32, 32] given a trailing unit axis reads (0, t, u, w) at (0, t, u). -/
theorem cast_perRow (x : S1x32x32.Idx → EReal) (h : S1x32x32.ShapeCasts S1x32x32x1) (t u : Fin 32) (w : Fin 1) :
    shapeCast S1x32x32x1 x h (ix4 (0 : Fin 1) t u w) = x (ix3 (0 : Fin 1) t u) :=
  shapeCast_apply x h _ _ (by
    have hw : w.val = 0 := by omega
    rw [Shape.rowMajor_val_three, Shape.rowMajor_val_four]
    show (0 * 32 + t.val) * 32 + u.val = (((0 * 32 + t.val) * 32 + u.val) * 1 + w.val)
    omega)

/-- A per-row quantity repeated along its row: (0, t, u, v) reads (0, t, u, 0). -/
theorem bcast_perRow (x : S1x32x32x1.Idx → EReal) (h : S1x32x32x1.Broadcasts S1x32x32x1024) (t u : Fin 32) (v : Fin 1024) :
    broadcastTo S1x32x32x1024 x h (ix4 (0 : Fin 1) t u v) = x (ix4 (0 : Fin 1) t u (0 : Fin 1)) :=
  broadcastTo_apply x h _ _ fun ax => match ax with
    | ⟨0, _⟩ => rfl
    | ⟨1, _⟩ => rfl
    | ⟨2, _⟩ => rfl
    | ⟨3, _⟩ => rfl

/-! ## The tile of logits, and the two row reductions -/

/-- The tile of logits the body forms from its three blocks: (e[t, ·] + d[u, ·]) + r. -/
def logitsTile (x0 x1 : Vec Ideal S1x32x1024 .f32) (x2 : Vec Ideal S1x1x1x1024 .f32) : FVec Ideal S1x32x32x1024 .f32 :=
  addf (addf (broadcastTo S1x32x32x1024 (shapeCast S1x32x1x1024 (shapeCast S1x32x1024 x0 shapeCasts_S1x32x1024_S1x32x1024) shapeCasts_S1x32x1024_S1x32x1x1024) broadcasts_S1x32x1x1024_S1x32x32x1024)
      (broadcastTo S1x32x32x1024 (shapeCast S1x1x32x1024 (shapeCast S1x32x1024 x1 shapeCasts_S1x32x1024_S1x32x1024) shapeCasts_S1x32x1024_S1x1x32x1024) broadcasts_S1x1x32x1024_S1x32x32x1024))
    (broadcastTo S1x32x32x1024 (shapeCast S1x1x1x1024 x2 shapeCasts_S1x1x1x1024_S1x1x1x1024) broadcasts_S1x1x1x1024_S1x32x32x1024)

/-- The row of 1024 logits at (t, u), from the three blocks. -/
def logitsRow (x0 x1 : Vec Ideal S1x32x1024 .f32) (x2 : Vec Ideal S1x1x1x1024 .f32) (t u : Fin 32) : Fin 1024 → EReal :=
  fun k => (x0 (ix3 (0 : Fin 1) t k) + x1 (ix3 (0 : Fin 1) u k)) + x2 (ix4 (0 : Fin 1) (0 : Fin 1) (0 : Fin 1) k)

/-- The tile of logits at (0, t, u, k) is the row (t, u) at k. -/
theorem logitsTile_at (x0 x1 : Vec Ideal S1x32x1024 .f32) (x2 : Vec Ideal S1x1x1x1024 .f32) (t u : Fin 32) (k : Fin 1024) :
    logitsTile x0 x1 x2 (ix4 (0 : Fin 1) t u k) = logitsRow x0 x1 x2 t u k := by
  unfold logitsTile logitsRow
  rw [addf_apply, addf_apply, bcast_encRows, bcast_decRows, bcast_biasRow, cast_encRows, cast_decRows,
    shapeCast_self, shapeCast_self, shapeCast_self]

/-- The index over (0, t, u) with k put on the reduced last axis is (0, t, u, k). -/
theorem lift_row (h : S1x32x32x1024.Reduces [3] S1x32x32) (t u : Fin 32) (k : Fin 1024) :
    h.lift (ix3 (0 : Fin 1) t u) k = ix4 (0 : Fin 1) t u k :=
  funext fun c => Fin.ext (match c with
    | ⟨0, _⟩ => rfl
    | ⟨1, _⟩ => rfl
    | ⟨2, _⟩ => rfl
    | ⟨3, _⟩ => rfl)

/-- The maximum along the last axis, from -∞, at (0, t, u): the maximum of that row. -/
theorem rowMax_at (X : FVec Ideal S1x32x32x1024 .f32) (h : S1x32x32x1024.Reduces [3] S1x32x32) (hφ : FKind.Formats .f32)
    (hacc : (0xFF800000#32 : BitVec 32) = FKind.maximumf.neutral .f32 hφ) (t u : Fin 32) :
    multiReduction .maximumf [3] S1x32x32 X 0xFF800000#32 h hφ hacc (ix3 (0 : Fin 1) t u)
      = Cert.Spec.rowMax (fun k : Fin 1024 => X (ix4 (0 : Fin 1) t u k)) := by
  refine (Ideal.multiReduction_maximumf_single X _ h hφ hacc (ix3 (0 : Fin 1) t u)).trans ?_
  have e : (X ∘ h.lift (ix3 (0 : Fin 1) t u)) = fun k : Fin 1024 => X (ix4 (0 : Fin 1) t u k) :=
    funext fun k => congrArg X (lift_row h t u k)
  rw [e]
  rfl

/-- The sum along the last axis at (0, t, u): the sum of that row. -/
theorem rowSum_at (X : FVec Ideal S1x32x32x1024 .f32) (h : S1x32x32x1024.Reduces [3] S1x32x32) (hφ : FKind.Formats .f32)
    (hacc : (0x00000000#32 : BitVec 32) = FKind.add.neutral .f32 hφ) (t u : Fin 32) :
    multiReduction .add [3] S1x32x32 X 0x00000000#32 h hφ hacc (ix3 (0 : Fin 1) t u)
      = ∑ k : Fin 1024, X (ix4 (0 : Fin 1) t u k) := by
  refine (Ideal.multiReduction_add_single X _ h hφ hacc (ix3 (0 : Fin 1) t u)).trans ?_
  exact Finset.sum_congr rfl fun k _ => congrArg X (lift_row h t u k)

/-! ## The body's arithmetic on a tile of logits -/

/-- Every row of the tile shifted by its own maximum. -/
def shiftedTile (X : FVec Ideal S1x32x32x1024 .f32) : FVec Ideal S1x32x32x1024 .f32 :=
  subf X (broadcastTo S1x32x32x1024 (shapeCast S1x32x32x1
    (multiReduction .maximumf [3] S1x32x32 X 0xFF800000#32 reduces_S1x32x32x1024_S1x32x32 (.inl rfl) rfl)
    shapeCasts_S1x32x32_S1x32x32x1) broadcasts_S1x32x32x1_S1x32x32x1024)

/-- The shifted tile less, row by row, the logarithm of the sum of its exponentials. -/
def logSoftmaxTile (X : FVec Ideal S1x32x32x1024 .f32) : FVec Ideal S1x32x32x1024 .f32 :=
  subf (shiftedTile X) (broadcastTo S1x32x32x1024 (log (shapeCast S1x32x32x1
    (multiReduction .add [3] S1x32x32 (exp (shiftedTile X)) 0x00000000#32 reduces_S1x32x32x1024_S1x32x32 (.inl rfl) rfl)
    shapeCasts_S1x32x32_S1x32x32x1)) broadcasts_S1x32x32x1_S1x32x32x1024)

/-- The body's payload is that arithmetic on the tile of logits of its three blocks. -/
theorem payload_eq (x0 x1 : Vec Ideal S1x32x1024 .f32) (x2 : Vec Ideal S1x1x1x1024 .f32) :
    k2_pay1 (F := Ideal) x0 x1 x2 = logSoftmaxTile (logitsTile x0 x1 x2) := rfl

/-- The shifted tile at (0, t, u, v): the entry less its row's maximum. -/
theorem shiftedTile_at (X : FVec Ideal S1x32x32x1024 .f32) (t u : Fin 32) (v : Fin 1024) :
    shiftedTile X (ix4 (0 : Fin 1) t u v)
      = X (ix4 (0 : Fin 1) t u v) - Cert.Spec.rowMax (fun k : Fin 1024 => X (ix4 (0 : Fin 1) t u k)) := by
  unfold shiftedTile
  rw [subf_apply, bcast_perRow, cast_perRow]
  exact congrArg (fun m => X (ix4 (0 : Fin 1) t u v) - m) (rowMax_at X _ _ _ t u)

/-- The body's arithmetic at (0, t, u, v): the log-softmax of row (t, u) at v. -/
theorem logSoftmaxTile_at (X : FVec Ideal S1x32x32x1024 .f32) (t u : Fin 32) (v : Fin 1024) :
    logSoftmaxTile X (ix4 (0 : Fin 1) t u v) = Cert.Spec.logSoftmaxRow (fun k : Fin 1024 => X (ix4 (0 : Fin 1) t u k)) v := by
  unfold logSoftmaxTile Cert.Spec.logSoftmaxRow
  rw [subf_apply, shiftedTile_at, bcast_perRow]
  show _ - Ideal.log (shapeCast S1x32x32x1 _ shapeCasts_S1x32x32_S1x32x32x1 (ix4 (0 : Fin 1) t u (0 : Fin 1))) = _
  rw [cast_perRow]
  refine congrArg (fun s => _ - Ideal.log s) ((rowSum_at _ _ _ _ t u).trans (Finset.sum_congr rfl fun k _ => ?_))
  show Ideal.exp (shiftedTile X (ix4 (0 : Fin 1) t u k)) = _
  rw [shiftedTile_at]

/-- THE PAYLOAD AT AN INDEX: entry (0, t, u, v) of what the body stores is the log-softmax, at v, of the row of logits
    (e[t, ·] + d[u, ·]) + r of its three blocks. -/
theorem payload_at (x0 x1 : Vec Ideal S1x32x1024 .f32) (x2 : Vec Ideal S1x1x1x1024 .f32) (t u : Fin 32) (v : Fin 1024) :
    k2_pay1 (F := Ideal) x0 x1 x2 (ix4 (0 : Fin 1) t u v) = Cert.Spec.logSoftmaxRow (logitsRow x0 x1 x2 t u) v := by
  rw [payload_eq, logSoftmaxTile_at]
  exact congrArg (fun row => Cert.Spec.logSoftmaxRow row v) (funext fun k => logitsTile_at x0 x1 x2 t u k)

/-- The same at a whole index of the tile. -/
theorem payload_at_idx (x0 x1 : Vec Ideal S1x32x1024 .f32) (x2 : Vec Ideal S1x1x1x1024 .f32) (j : S1x32x32x1024.Idx) :
    k2_pay1 (F := Ideal) x0 x1 x2 j = Cert.Spec.logSoftmaxRow (logitsRow x0 x1 x2 (j 1) (j 2)) (j 3) := by
  obtain ⟨a, t, u, v, rfl⟩ : ∃ (a : Fin 1) (t u : Fin 32) (v : Fin 1024), j = ix4 a t u v :=
    ⟨j 0, j 1, j 2, j 3, eq_ix4 j⟩
  obtain rfl : a = 0 := Subsingleton.elim _ _
  exact payload_at x0 x1 x2 t u v

/-! ## From the tiles to the array -/

theorem zeroOffsets3 : (![0, 0, 0] : Fin 3 → Nat) = fun _ => 0 :=
  funext fun a => match a with | ⟨0, _⟩ => rfl | ⟨1, _⟩ => rfl | ⟨2, _⟩ => rfl

theorem zeroOffsets4 : (![0, 0, 0, 0] : Fin 4 → Nat) = fun _ => 0 :=
  funext fun a => match a with | ⟨0, _⟩ => rfl | ⟨1, _⟩ => rfl | ⟨2, _⟩ => rfl | ⟨3, _⟩ => rfl

/-- Where each window's block sits at a grid point, relative to the result's tile (β, p, q, 0): the encoder block at
    (β, p, 0), the decoder block at (β, q, 0), the bias row at the origin; and the tile's coordinates stay in 4 × 8 × 2. -/
theorem softmaxTile_indices : ∀ t : Fin cfg2.N,
    win2_0.index t (0 : Fin 3) = win2_3.index t (0 : Fin 4) ∧ win2_0.index t (1 : Fin 3) = win2_3.index t (1 : Fin 4)
    ∧ win2_0.index t (2 : Fin 3) = 0
    ∧ win2_1.index t (0 : Fin 3) = win2_3.index t (0 : Fin 4) ∧ win2_1.index t (1 : Fin 3) = win2_3.index t (2 : Fin 4)
    ∧ win2_1.index t (2 : Fin 3) = 0
    ∧ win2_2.index t (0 : Fin 4) = 0 ∧ win2_2.index t (1 : Fin 4) = 0 ∧ win2_2.index t (2 : Fin 4) = 0
    ∧ win2_2.index t (3 : Fin 4) = 0
    ∧ win2_3.index t (3 : Fin 4) = 0
    ∧ win2_3.index t (0 : Fin 4) < 4 ∧ win2_3.index t (1 : Fin 4) < 8 ∧ win2_3.index t (2 : Fin 4) < 2 :=
  (by decide +kernel : ∀ t : Fin grid2.N, _)

/-- Every tile (β, p, q, 0) of the 4 × 8 × 2 tiling is some grid point's. -/
theorem softmaxTile_onto : ∀ (b : Fin 4) (p : Fin 8) (q : Fin 2), ∃ t : Fin cfg2.N, win2_3.index t = ![b.val, p.val, q.val, 0] :=
  (by decide +kernel : ∀ (b : Fin 4) (p : Fin 8) (q : Fin 2), ∃ t : Fin grid2.N, win2_3.index t = ![b.val, p.val, q.val, 0])

/-- Two rows' log-softmax agree when the rows and the entries do. -/
theorem logSoftmaxRow_congr {row row' : Fin 1024 → EReal} {v v' : Fin 1024} (hr : row = row') (hv : v = v') :
    Cert.Spec.logSoftmaxRow row v = Cert.Spec.logSoftmaxRow row' v' := by
  subst hr hv; rfl

/-- WHAT A GRID POINT WRITES BACK is its tile of the row-wise log-softmax of the broadcast sum of the three arrays as the
    launch finds them: row t of its encoder block is row 32·p + t of e[β], row u of its decoder block is row 32·q + u of
    d[β], and the tile's entry (0, t, u, v) lies at (β, 32·p + t, 32·q + u, v) of the result. -/
theorem softmaxTile_written (c : Dev nD) (t : Fin cfg2.N) :
    (dat2 (F := Ideal) V c).flushed 3 t
      = ((cfg2.win 3).blk t).view.read (Elt Ideal) (Cert.Spec.logSoftmaxOfSum (V c main_v8) (V c main_v9) (V c main_v10)) := by
  show (cfg2.win 3).cut (grid2.coords t) ((dat2 (F := Ideal) V c).after 3 t) = _
  rw [after2_3]
  unfold out2_3
  rw [View.canon_unit_zero zeroOffsets4]
  simp only [View.ld_unit_zero (S := S1x32x1024) zeroOffsets3, View.ld_unit_zero (S := S1x1x1x1024) zeroOffsets4]
  obtain ⟨e00, e01, e02, e10, e11, e12, e20, e21, e22, e23, e33, -, -, -⟩ := softmaxTile_indices t
  funext j
  have hj0 : (j 0).val < 1 := (j 0).isLt
  show k2_pay1 (F := Ideal) (iblk2 V c 0 t) (iblk2 V c 1 t) (iblk2 V c 2 t) ((cfg2.win 3).xinj (grid2.coords t) j)
    = Cert.Spec.logSoftmaxOfSum (V c main_v8) (V c main_v9) (V c main_v10) (((cfg2.win 3).blk t).view.emb j)
  refine (payload_at_idx _ _ _ _).trans ?_
  unfold Cert.Spec.logSoftmaxOfSum
  refine logSoftmaxRow_congr (funext fun k => ?_) (Fin.ext ?_)
  · unfold logitsRow
    have h0 : (iblk2 V c 0 t (ix3 (0 : Fin 1) (j 1) k) : EReal)
        = V c main_v8 (ix3 ((((cfg2.win 3).blk t).view.emb j) 0) ((((cfg2.win 3).blk t).view.emb j) 1) k) := by
      show V c main_v8 (((cfg2.win 0).blk t).view.emb (ix3 (0 : Fin 1) (j 1) k)) = _
      refine congrArg (V c main_v8) (funext fun a => Fin.ext ?_)
      match a with
      | ⟨0, _⟩ => show win2_0.index t (0 : Fin 3) * 1 + 1 * 0 = win2_3.index t (0 : Fin 4) * 1 + 1 * (j 0).val; omega
      | ⟨1, _⟩ => show win2_0.index t (1 : Fin 3) * 32 + 1 * (j 1).val = win2_3.index t (1 : Fin 4) * 32 + 1 * (j 1).val; omega
      | ⟨2, _⟩ => show win2_0.index t (2 : Fin 3) * 1024 + 1 * k.val = k.val; omega
    have h1 : (iblk2 V c 1 t (ix3 (0 : Fin 1) (j 2) k) : EReal)
        = V c main_v9 (ix3 ((((cfg2.win 3).blk t).view.emb j) 0) ((((cfg2.win 3).blk t).view.emb j) 2) k) := by
      show V c main_v9 (((cfg2.win 1).blk t).view.emb (ix3 (0 : Fin 1) (j 2) k)) = _
      refine congrArg (V c main_v9) (funext fun a => Fin.ext ?_)
      match a with
      | ⟨0, _⟩ => show win2_1.index t (0 : Fin 3) * 1 + 1 * 0 = win2_3.index t (0 : Fin 4) * 1 + 1 * (j 0).val; omega
      | ⟨1, _⟩ => show win2_1.index t (1 : Fin 3) * 32 + 1 * (j 2).val = win2_3.index t (2 : Fin 4) * 32 + 1 * (j 2).val; omega
      | ⟨2, _⟩ => show win2_1.index t (2 : Fin 3) * 1024 + 1 * k.val = k.val; omega
    have h2 : (iblk2 V c 2 t (ix4 (0 : Fin 1) (0 : Fin 1) (0 : Fin 1) k) : EReal)
        = V c main_v10 (ix4 (0 : Fin 1) (0 : Fin 1) (0 : Fin 1) k) := by
      show V c main_v10 (((cfg2.win 2).blk t).view.emb (ix4 (0 : Fin 1) (0 : Fin 1) (0 : Fin 1) k)) = _
      refine congrArg (V c main_v10) (funext fun a => Fin.ext ?_)
      match a with
      | ⟨0, _⟩ => show win2_2.index t (0 : Fin 4) * 1 + 1 * 0 = 0; omega
      | ⟨1, _⟩ => show win2_2.index t (1 : Fin 4) * 1 + 1 * 0 = 0; omega
      | ⟨2, _⟩ => show win2_2.index t (2 : Fin 4) * 1 + 1 * 0 = 0; omega
      | ⟨3, _⟩ => show win2_2.index t (3 : Fin 4) * 1024 + 1 * k.val = k.val; omega
    exact congrArg₂ (fun a b : EReal => a + b) (congrArg₂ (fun a b : EReal => a + b) h0 h1) h2
  · show (j 3).val = win2_3.index t (3 : Fin 4) * 1024 + 1 * (j 3).val
    omega

/-- An index of the result is in a grid point's tile iff each coordinate is in the tile's range on its axis. -/
theorem mem_softmaxTile (t : Fin cfg2.N) (i : S4x256x64x1024.Idx) :
    i ∈ ((cfg2.win 3).blk t).view.set ↔ ∀ a : Fin 4, win2_3.index t a * S1x32x32x1024.size a ≤ (i a).val
      ∧ (i a).val < win2_3.index t a * S1x32x32x1024.size a + S1x32x32x1024.size a := by
  show i ∈ ((View.whole main_v11).slice (win2_3.rect t)).set ↔ _
  rw [View.set_slice_whole, Rect.mem_set_unit]
  exact Iff.rfl

/-- The tiles cover the result: (β, r, s, v) lies in the tile (β, r / 32, s / 32, 0). -/
theorem softmaxTiles_cover (i : S4x256x64x1024.Idx) :
    ∃ t : Fin cfg2.N, (cfg2.win 3).flush t = true ∧ i ∈ ((cfg2.win 3).blk t).view.set := by
  have h0 : (i 0).val < 4 := (i 0).isLt
  have h1 : (i 1).val < 256 := (i 1).isLt
  have h2 : (i 2).val < 64 := (i 2).isLt
  have h3 : (i 3).val < 1024 := (i 3).isLt
  obtain ⟨t, ht⟩ := softmaxTile_onto ⟨(i 0).val, h0⟩ ⟨(i 1).val / 32, by omega⟩ ⟨(i 2).val / 32, by omega⟩
  have q0 : win2_3.index t (0 : Fin 4) = (i 0).val := congrFun ht 0
  have q1 : win2_3.index t (1 : Fin 4) = (i 1).val / 32 := congrFun ht 1
  have q2 : win2_3.index t (2 : Fin 4) = (i 2).val / 32 := congrFun ht 2
  have q3 : win2_3.index t (3 : Fin 4) = 0 := congrFun ht 3
  refine ⟨t, flush2_3 t, ?_⟩
  rw [mem_softmaxTile]
  intro a
  match a with
  | ⟨0, _⟩ => show win2_3.index t (0 : Fin 4) * 1 ≤ (i 0).val ∧ (i 0).val < win2_3.index t (0 : Fin 4) * 1 + 1; omega
  | ⟨1, _⟩ => show win2_3.index t (1 : Fin 4) * 32 ≤ (i 1).val ∧ (i 1).val < win2_3.index t (1 : Fin 4) * 32 + 32; omega
  | ⟨2, _⟩ => show win2_3.index t (2 : Fin 4) * 32 ≤ (i 2).val ∧ (i 2).val < win2_3.index t (2 : Fin 4) * 32 + 32; omega
  | ⟨3, _⟩ => show win2_3.index t (3 : Fin 4) * 1024 ≤ (i 3).val ∧ (i 3).val < win2_3.index t (3 : Fin 4) * 1024 + 1024; omega

/-- The log-softmax launch: from any contents `V` of the buffers at its entry, its result array ends at the row-wise
    log-softmax of (`main_v8`[β, t, ·] + `main_v9`[β, u, ·]) + `main_v10`[0, 0, 0, ·]. -/
theorem region2_result (c : Dev nD) :
    (dat2 (F := Ideal) V c).arrAt 3 cfg2.N = Cert.Spec.logSoftmaxOfSum (V c main_v8) (V c main_v9) (V c main_v10) :=
  (dat2 (F := Ideal) V c).arrAt_eq_of_cover 3 _ (fun t _ => softmaxTile_written V c t) softmaxTiles_cover

end Cert.KernelIdeal.RegionValue

end
-- ==== Proof.KernelValue.lean ====
/-
  The kernel program's result as one function of its four arguments, at the extended reals.

  The program runs in five stretches. Host operations first lay the operands out: x [4, 256, 512] is read as a
  [1024, 512] matrix (row β·256 + t), y [4, 64, 512] as a [256, 512] matrix (row β·64 + u), and the left and right
  512 columns of W are transposed to [512, 1024]. Two launches form the products; host operations read them back as
  [4, 256, 1024] and [4, 64, 1024] and the bias as a [1, 1, 1, 1024] row; the last launch takes the row-wise
  log-softmax of their broadcast sum. Reading each stretch at an index: row β·256 + t of the first product at column v
  is Σ_k x[β, t, k] · W[v, k], row β·64 + u of the second is Σ_k y[β, u, k] · W[v, 512 + k], so the last launch's three
  inputs are the encoder projection, the decoder projection and the bias row of the specification, and the program's
  result is the specification's.
-/
import proofs.«163983_j14903536517746_1_alg».proof.Proof.KernelRun
import proofs.«163983_j14903536517746_1_alg».proof.Proof.MatmulRegions
import proofs.«163983_j14903536517746_1_alg».proof.Proof.SoftmaxRegion
import proofs.«163983_j14903536517746_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.ResultValue

open Cert.KernelIdeal Cert.KernelIdeal.Gen Cert.KernelIdeal.RegionValue
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-! ## The first host stretch: the operands laid out for the two products -/

/-- x read as a [1024, 512] matrix. -/
theorem lhsEnc_eq (c : Dev nD) :
    (V1 m ρ c main_v0 : S1024x512.Idx → EReal)
      = shapeCast S1024x512 (m ((c : Thread nD τ).loc main_arg0)) Facts₀.shapeCasts_S4x256x512_S1024x512 := by
  show StableHlo.after hostOps0 (W0 m ρ c) (Proc.devRef .tc main_v0) = _
  after_results
  rfl

/-- y read as a [256, 512] matrix. -/
theorem lhsDec_eq (c : Dev nD) :
    (V1 m ρ c main_v1 : S256x512.Idx → EReal)
      = shapeCast S256x512 (m ((c : Thread nD τ).loc main_arg1)) Facts₀.shapeCasts_S4x64x512_S256x512 := by
  show StableHlo.after hostOps0 (W0 m ρ c) (Proc.devRef .tc main_v1) = _
  after_results
  rfl

/-- The left 512 columns of W, transposed. -/
theorem rhsEnc_eq (c : Dev nD) :
    (V1 m ρ c main_v4 : S512x1024.Idx → EReal)
      = transpose S512x1024 [1, 0] (extractStridedSlice S1024x512 ![0, 0] (m ((c : Thread nD τ).loc main_arg2))
          Facts₀.slices_S1024x1024_S1024x512_0_0) Facts₀.transposes_S1024x512_S512x1024_1_0 := by
  show StableHlo.after hostOps0 (W0 m ρ c) (Proc.devRef .tc main_v4) = _
  after_results

/-- The right 512 columns of W, transposed. -/
theorem rhsDec_eq (c : Dev nD) :
    (V1 m ρ c main_v5 : S512x1024.Idx → EReal)
      = transpose S512x1024 [1, 0] (extractStridedSlice S1024x512 ![0, 512] (m ((c : Thread nD τ).loc main_arg2))
          Facts₀.slices_S1024x1024_S1024x512_0_512) Facts₀.transposes_S1024x512_S512x1024_1_0 := by
  show StableHlo.after hostOps0 (W0 m ρ c) (Proc.devRef .tc main_v5) = _
  after_results

/-- Row β·256 + t of the first matrix is row (β, t) of x. -/
theorem lhsEnc_apply (c : Dev nD) (β : Fin 4) (t : Fin 256) (k : Fin 512) :
    V1 m ρ c main_v0 (ix2 (n0 := 1024) (n1 := 512) ⟨β.val * 256 + t.val, by have := β.isLt; have := t.isLt; omega⟩ k)
      = m ((c : Thread nD τ).loc main_arg0) (ix3 (n0 := 4) (n1 := 256) (n2 := 512) β t k) := by
  rw [lhsEnc_eq]
  exact shapeCast_apply (s := S4x256x512) (t := S1024x512) _ _ _ _ (by rw [Shape.rowMajor_val_three, Shape.rowMajor_val_two]; rfl)

/-- Row β·64 + u of the second matrix is row (β, u) of y. -/
theorem lhsDec_apply (c : Dev nD) (β : Fin 4) (u : Fin 64) (k : Fin 512) :
    V1 m ρ c main_v1 (ix2 (n0 := 256) (n1 := 512) ⟨β.val * 64 + u.val, by have := β.isLt; have := u.isLt; omega⟩ k)
      = m ((c : Thread nD τ).loc main_arg1) (ix3 (n0 := 4) (n1 := 64) (n2 := 512) β u k) := by
  rw [lhsDec_eq]
  exact shapeCast_apply (s := S4x64x512) (t := S256x512) _ _ _ _ (by rw [Shape.rowMajor_val_three, Shape.rowMajor_val_two]; rfl)

/-- Entry (k, v) of the transposed left half is W[v, k]. -/
theorem rhsEnc_apply (c : Dev nD) (k : Fin 512) (v : Fin 1024) :
    V1 m ρ c main_v4 (ix2 (n0 := 512) (n1 := 1024) k v)
      = m ((c : Thread nD τ).loc main_arg2) (ix2 (n0 := 1024) (n1 := 1024) v ⟨k.val, by have := k.isLt; omega⟩) := by
  rw [rhsEnc_eq]
  rw [transpose_apply [1, 0] _ _ (ix2 (n0 := 512) (n1 := 1024) k v) (ix2 (n0 := 1024) (n1 := 512) v k)
    (fun b => match b with | ⟨0, _⟩ => rfl | ⟨1, _⟩ => rfl)]
  exact extractStridedSlice_apply _ _ _ _ _ (fun a => match a with
    | ⟨0, _⟩ => (Nat.zero_add _).symm
    | ⟨1, _⟩ => (Nat.zero_add _).symm)

/-- Entry (k, v) of the transposed right half is W[v, 512 + k]. -/
theorem rhsDec_apply (c : Dev nD) (k : Fin 512) (v : Fin 1024) :
    V1 m ρ c main_v5 (ix2 (n0 := 512) (n1 := 1024) k v)
      = m ((c : Thread nD τ).loc main_arg2) (ix2 (n0 := 1024) (n1 := 1024) v ⟨512 + k.val, by have := k.isLt; omega⟩) := by
  rw [rhsDec_eq]
  rw [transpose_apply [1, 0] _ _ (ix2 (n0 := 512) (n1 := 1024) k v) (ix2 (n0 := 1024) (n1 := 512) v k)
    (fun b => match b with | ⟨0, _⟩ => rfl | ⟨1, _⟩ => rfl)]
  exact extractStridedSlice_apply _ _ _ _ _ (fun a => match a with
    | ⟨0, _⟩ => (Nat.zero_add _).symm
    | ⟨1, _⟩ => rfl)

/-! ## The two products, as the second host stretch finds them -/

/-- After the two projection launches the first product's buffer holds the product of the two laid-out operands. -/
theorem prodEnc_eq (c : Dev nD) :
    (W3 m ρ c (Proc.devRef .tc main_v6) : S1024x1024.Idx → EReal)
      = Cert.Spec.matProd (M := 1024) (V1 m ρ c main_v0) (V1 m ρ c main_v4) :=
  ((W3_of_ne m ρ c main_v6 (by decide)).trans (W2_arr m ρ c 2)).trans (region0_result (V1 m ρ) c)

/-- The second launch finds y's matrix and the transposed right half as the first host stretch left them. -/
theorem prodDec_eq (c : Dev nD) :
    (W3 m ρ c (Proc.devRef .tc main_v7) : S256x1024.Idx → EReal)
      = Cert.Spec.matProd (M := 256) (V1 m ρ c main_v1) (V1 m ρ c main_v5) := by
  refine ((W3_arr m ρ c 2).trans (region1_result (V2 m ρ) c)).trans ?_
  rw [show V2 m ρ c main_v1 = V1 m ρ c main_v1 from W2_of_ne m ρ c main_v1 (by decide),
    show V2 m ρ c main_v5 = V1 m ρ c main_v5 from W2_of_ne m ρ c main_v5 (by decide)]

/-- The bias reaches the second host stretch as launched. -/
theorem bias_kept (c : Dev nD) : W3 m ρ c (Proc.devRef .tc main_arg3) = m ((c : Thread nD τ).loc main_arg3) := by
  refine ((W3_of_ne m ρ c main_arg3 (by decide)).trans (W2_of_ne m ρ c main_arg3 (by decide))).trans ?_
  show StableHlo.after hostOps0 (W0 m ρ c) (Proc.devRef .tc main_arg3) = _
  after_results

/-! ## The second host stretch: the last launch's three inputs -/

theorem encIn_eq (c : Dev nD) :
    (V4 m ρ c main_v8 : S4x256x1024.Idx → EReal)
      = shapeCast S4x256x1024 (W3 m ρ c (Proc.devRef .tc main_v6)) Facts₀.shapeCasts_S1024x1024_S4x256x1024 := by
  show StableHlo.after hostOps2 (W3 m ρ c) (Proc.devRef .tc main_v8) = _
  after_results
  rfl

theorem decIn_eq (c : Dev nD) :
    (V4 m ρ c main_v9 : S4x64x1024.Idx → EReal)
      = shapeCast S4x64x1024 (W3 m ρ c (Proc.devRef .tc main_v7)) Facts₀.shapeCasts_S256x1024_S4x64x1024 := by
  show StableHlo.after hostOps2 (W3 m ρ c) (Proc.devRef .tc main_v9) = _
  after_results
  rfl

theorem biasIn_eq (c : Dev nD) :
    (V4 m ρ c main_v10 : S1x1x1x1024.Idx → EReal)
      = shapeCast S1x1x1x1024 (W3 m ρ c (Proc.devRef .tc main_arg3)) Facts₀.shapeCasts_S1024_S1x1x1x1024 := by
  show StableHlo.after hostOps2 (W3 m ρ c) (Proc.devRef .tc main_v10) = _
  after_results
  rfl

/-- The last launch's first input is the encoder projection. -/
theorem encIn_is (c : Dev nD) :
    (V4 m ρ c main_v8 : S4x256x1024.Idx → EReal)
      = Cert.Spec.encProj (m ((c : Thread nD τ).loc main_arg0)) (m ((c : Thread nD τ).loc main_arg2)) := by
  funext i
  obtain ⟨β, t, v, rfl⟩ : ∃ (β : Fin 4) (t : Fin 256) (v : Fin 1024), i = ix3 β t v := ⟨i 0, i 1, i 2, eq_ix3 i⟩
  rw [encIn_eq, shapeCast_apply (s := S1024x1024) (t := S4x256x1024) _ _ (ix3 (n0 := 4) (n1 := 256) (n2 := 1024) β t v)
    (ix2 (n0 := 1024) (n1 := 1024) ⟨β.val * 256 + t.val, by have := β.isLt; have := t.isLt; omega⟩ v)
    (by rw [Shape.rowMajor_val_three, Shape.rowMajor_val_two]; rfl), prodEnc_eq]
  show @Eq EReal _ _
  exact Finset.sum_congr rfl fun k _ => congrArg₂ (· * ·) (lhsEnc_apply m ρ c β t k) (rhsEnc_apply m ρ c k v)

/-- The last launch's second input is the decoder projection. -/
theorem decIn_is (c : Dev nD) :
    (V4 m ρ c main_v9 : S4x64x1024.Idx → EReal)
      = Cert.Spec.decProj (m ((c : Thread nD τ).loc main_arg1)) (m ((c : Thread nD τ).loc main_arg2)) := by
  funext i
  obtain ⟨β, u, v, rfl⟩ : ∃ (β : Fin 4) (u : Fin 64) (v : Fin 1024), i = ix3 β u v := ⟨i 0, i 1, i 2, eq_ix3 i⟩
  rw [decIn_eq, shapeCast_apply (s := S256x1024) (t := S4x64x1024) _ _ (ix3 (n0 := 4) (n1 := 64) (n2 := 1024) β u v)
    (ix2 (n0 := 256) (n1 := 1024) ⟨β.val * 64 + u.val, by have := β.isLt; have := u.isLt; omega⟩ v)
    (by rw [Shape.rowMajor_val_three, Shape.rowMajor_val_two]; rfl), prodDec_eq]
  show @Eq EReal _ _
  exact Finset.sum_congr rfl fun k _ => congrArg₂ (· * ·) (lhsDec_apply m ρ c β u k) (rhsDec_apply m ρ c k v)

/-- The last launch's third input is the bias as a row. -/
theorem biasIn_is (c : Dev nD) :
    (V4 m ρ c main_v10 : S1x1x1x1024.Idx → EReal) = Cert.Spec.biasRow (m ((c : Thread nD τ).loc main_arg3)) := by
  funext i
  rw [biasIn_eq, bias_kept]
  have h0 : (i 0).val < 1 := (i 0).isLt
  have h1 : (i 1).val < 1 := (i 1).isLt
  have h2 : (i 2).val < 1 := (i 2).isLt
  refine shapeCast_apply (s := S1024) (t := S1x1x1x1024) _ _ i (ix1 (n := 1024) (i 3)) ?_
  rw [Shape.rowMajor_val_one, Shape.rowMajor_val_four]
  show (i 3).val = (((i 0).val * 1 + (i 1).val) * 1 + (i 2).val) * 1024 + (i 3).val
  omega

/-! ## The result -/

/-- What the last launch leaves in the result buffer is the specification's function of the four arguments. -/
theorem result_eq (c : Dev nD) :
    (W5 m ρ c (Proc.devRef .tc main_v11) : S4x256x64x1024.Idx → EReal)
      = Cert.Spec.result (m ((c : Thread nD τ).loc main_arg0)) (m ((c : Thread nD τ).loc main_arg1))
          (m ((c : Thread nD τ).loc main_arg2)) (m ((c : Thread nD τ).loc main_arg3)) := by
  refine ((W5_arr m ρ c 3).trans (region2_result (V4 m ρ) c)).trans ?_
  rw [encIn_is, decIn_is, biasIn_is]
  rfl

/-- The kernel program's run: it terminates, nothing faulting, with the result array at the specification's function of
    the arguments and the arguments unchanged. -/
theorem run : θ_run defs (onTc (τ := τ) (main (F := Ideal))) ⟨m, fun _ => 0, ρ⟩ (fun r => ∀ c : Dev nD,
      r.2.mem ((c.tc : Thread nD τ).loc main_v11)
        = Cert.Spec.result (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩)
    (Cert.KernelIdeal.GenRun.run_result (F := Ideal) m ρ)

end Cert.KernelIdeal.ResultValue

end
-- ==== Proof.RefValue.lean ====
/-
  The reference's result as the specification's function of its four arguments, at the extended reals.

  The reference slices W into its left and right 512 columns, contracts x and y with them over the 512 shared entries
  (e[β, t, v] = Σ_k x[β, t, k] · W[v, k], d[β, u, v] = Σ_k y[β, u, k] · W[v, 512 + k]), broadcasts e along u, d along t
  and the bias along everything but v, adds them as (e + d) + b, and applies the log-softmax along the last axis: the
  row's maximum from -∞ (taken once more against -∞, which changes nothing), the shifted logits, their exponentials
  summed from zero, the logarithm, and the difference. Read at an index (β, t, u, v) each step names one entry of its
  operands, or one row of 1024 of them, so the result is the specification's.
-/
import proofs.«163983_j14903536517746_1_alg».proof.Proof.RefRead
import proofs.«163983_j14903536517746_1_alg».proof.Proof.Spec
import Idealize.ShloMosaic.Lib.Pipeline.Value
import Idealize.ShloMosaic.Lib.ValueIdx
import Idealize.ShloMosaic.PureOps.Ideal.Laws
import Idealize.ShloMosaic.PureOps.Reduce

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.SL.Sem
open Idealize.ShloMosaic.ValueIdx

variable (x0 : (⟨S4x256x512, .f32⟩ : BufTy).Contents (Elt Ideal)) (x1 : (⟨S4x64x512, .f32⟩ : BufTy).Contents (Elt Ideal))
    (x2 : (⟨S1024x1024, .f32⟩ : BufTy).Contents (Elt Ideal)) (x3 : (⟨S1024, .f32⟩ : BufTy).Contents (Elt Ideal))

/-! ## The logits

At (β, t, u, v) the two broadcasts in front of each projection keep β and v and put t (encoder) or u (decoder) back in
the middle, the contraction runs over the 512 entries k, and the slice of W reads row v at column k (left half) or
512 + k (right half). The bias is read at v alone. -/

/-- The encoder projection's left factor at (β, t, u, v) and k is x[β, t, k]. -/
theorem enc_left (β : Fin 4) (t : Fin 256) (u : Fin 64) (v : Fin 1024) (k : Fin 512) :
    lidx_main_v2 (idx_main_v4 (idx_main_v6 (ix4 β t u v))) k = ix3 β t k :=
  funext fun a => Fin.ext (by match a with | ⟨0, _⟩ => rfl | ⟨1, _⟩ => rfl | ⟨2, _⟩ => rfl)

/-- Its right factor is W[v, k]: the left 512 columns of row v. -/
theorem enc_right (β : Fin 4) (t : Fin 256) (u : Fin 64) (v : Fin 1024) (k : Fin 512) :
    idx_main_v0 (ridx_main_v2 (idx_main_v4 (idx_main_v6 (ix4 β t u v))) k)
      = ix2 (n0 := 1024) (n1 := 1024) v ⟨k.val, by have := k.isLt; omega⟩ :=
  funext fun a => Fin.ext (by match a with | ⟨0, _⟩ => rfl | ⟨1, _⟩ => rfl)

/-- The decoder projection's left factor at (β, t, u, v) and k is y[β, u, k]. -/
theorem dec_left (β : Fin 4) (t : Fin 256) (u : Fin 64) (v : Fin 1024) (k : Fin 512) :
    lidx_main_v3 (idx_main_v5 (idx_main_v7 (ix4 β t u v))) k = ix3 β u k :=
  funext fun a => Fin.ext (by match a with | ⟨0, _⟩ => rfl | ⟨1, _⟩ => rfl | ⟨2, _⟩ => rfl)

/-- Its right factor is W[v, 512 + k]: the right 512 columns of row v. -/
theorem dec_right (β : Fin 4) (t : Fin 256) (u : Fin 64) (v : Fin 1024) (k : Fin 512) :
    idx_main_v1 (ridx_main_v3 (idx_main_v5 (idx_main_v7 (ix4 β t u v))) k)
      = ix2 (n0 := 1024) (n1 := 1024) v ⟨512 + k.val, by have := k.isLt; omega⟩ :=
  funext fun a => Fin.ext (by match a with | ⟨0, _⟩ => rfl | ⟨1, _⟩ => rfl)

/-- The bias, broadcast to every (β, t, u), is read at v. -/
theorem bias_idx (β : Fin 4) (t : Fin 256) (u : Fin 64) (v : Fin 1024) :
    idx_main_v9 (idx_main_v10 (ix4 β t u v)) = ix1 v :=
  funext fun a => Fin.ext (by match a with | ⟨0, _⟩ => rfl)

/-- The logit at (β, t, u, v) is (e[β, t, v] + d[β, u, v]) + b[v]. -/
theorem logits_apply (β : Fin 4) (t : Fin 256) (u : Fin 64) (v : Fin 1024) :
    val_main_v11 (F := Ideal) x0 x1 x2 x3 (ix4 β t u v)
      = (Cert.Spec.encProj x0 x2 (ix3 β t v) + Cert.Spec.decProj x1 x2 (ix3 β u v))
          + Cert.Spec.biasRow x3 (ix4 0 0 0 v) := by
  rw [val_main_v11_apply, val_main_v8_apply, val_main_v6_apply, val_main_v4_apply, val_main_v2_apply,
    val_main_v7_apply, val_main_v5_apply, val_main_v3_apply, val_main_v10_apply, val_main_v9_apply]
  simp only [val_main_v0_apply, val_main_v1_apply, enc_left, enc_right, dec_left, dec_right, bias_idx,
    Ideal.addf_def]
  rfl

/-- The row of logits at (β, t, u), as a function of the last coordinate. From here on only this row is used, never
    what a logit is made of. -/
abbrev logitRow (β : Fin 4) (t : Fin 256) (u : Fin 64) : Fin 1024 → EReal :=
  fun v => val_main_v11 (F := Ideal) x0 x1 x2 x3 (ix4 β t u v)

theorem logitRow_eq (β : Fin 4) (t : Fin 256) (u : Fin 64) :
    logitRow x0 x1 x2 x3 β t u
      = fun v : Fin 1024 => (Cert.Spec.encProj x0 x2 (ix3 β t v) + Cert.Spec.decProj x1 x2 (ix3 β u v))
          + Cert.Spec.biasRow x3 (ix4 0 0 0 v) :=
  funext fun v => logits_apply x0 x1 x2 x3 β t u v

/-! ## The row maximum

A reduction with max over the last axis alone: max commutes and associates, so at (β, t, u) it is the fold of max from
the initial value -∞ over the 1024 entries (β, t, u, k). -/

/-- Dropping the last axis of [4, 256, 64, 1024] leaves [4, 256, 64]; this fact names the index put back on that axis. -/
theorem reduces_row : S4x256x64x1024.Reduces [3] S4x256x64 := by decide

/-- The index over (β, t, u) with k put back on the last axis is (β, t, u, k). -/
theorem lift_row (β : Fin 4) (t : Fin 256) (u : Fin 64) (k : Fin 1024) :
    reduces_row.lift (ix3 β t u) k = ix4 β t u k :=
  funext fun a => Fin.ext (by match a with | ⟨0, _⟩ => rfl | ⟨1, _⟩ => rfl | ⟨2, _⟩ => rfl | ⟨3, _⟩ => rfl)

/-- The max-reduction of any [4, 256, 64, 1024] array over its last axis, started from -∞, is at (β, t, u) the maximum
    of the row f[β, t, u, ·]. -/
theorem hostMax_row (f : S4x256x64x1024.Idx → EReal) (β : Fin 4) (t : Fin 256) (u : Fin 64) :
    Host.reduce (FloatOps.maximumf (F := Ideal) (φ := .f32)) f (val_main_call0_cst (F := Ideal))
        reducesTo_S4x256x64x1024_S4x256x64_d3 h_S_ (ix3 β t u)
      = Cert.Spec.rowMax (fun v : Fin 1024 => f (ix4 β t u v)) := by
  rw [Host.reduce_eq_fold_single _ _ _ _ reduces_row]
  have e : (f ∘ reduces_row.lift (ix3 β t u)) = fun v : Fin 1024 => f (ix4 β t u v) :=
    funext fun k => congrArg f (lift_row β t u k)
  rw [e]
  rfl

/-- So the reference's reduction is the maximum of the row of logits. -/
theorem rowMax_apply (β : Fin 4) (t : Fin 256) (u : Fin 64) :
    val_main_call0_v0 (F := Ideal) x0 x1 x2 x3 (ix3 β t u) = Cert.Spec.rowMax (logitRow x0 x1 x2 x3 β t u) :=
  hostMax_row (val_main_v11 (F := Ideal) x0 x1 x2 x3) β t u

/-- The constant the maximum is compared with once more is -∞ everywhere. -/
theorem negInf_apply (j : S4x256x64.Idx) : val_main_call0_v1 (F := Ideal) j = Cert.Spec.negInf := by
  rw [val_main_call0_v1_apply, val_main_call0_cst_0_apply]
  exact Ideal.ofBits_def _

/-- max (-∞, M) = M for a maximum M taken from -∞: the second comparison changes nothing. -/
theorem rowMax_again (β : Fin 4) (t : Fin 256) (u : Fin 64) :
    val_main_call0_v2 (F := Ideal) x0 x1 x2 x3 (ix3 β t u) = Cert.Spec.rowMax (logitRow x0 x1 x2 x3 β t u) := by
  rw [val_main_call0_v2_apply, negInf_apply, rowMax_apply]
  exact Cert.Spec.max_negInf_rowMax _

/-- Broadcast back along the last axis, the maximum at (β, t, u, v) is the one of the row (β, t, u). -/
theorem max_idx (β : Fin 4) (t : Fin 256) (u : Fin 64) (v : Fin 1024) :
    idx_main_call0_v3 (idx_main_call0_v4 (ix4 β t u v)) = ix3 β t u :=
  funext fun a => Fin.ext (by match a with | ⟨0, _⟩ => rfl | ⟨1, _⟩ => rfl | ⟨2, _⟩ => rfl)

theorem rowMax_spread (β : Fin 4) (t : Fin 256) (u : Fin 64) (v : Fin 1024) :
    val_main_call0_v4 (F := Ideal) x0 x1 x2 x3 (ix4 β t u v) = Cert.Spec.rowMax (logitRow x0 x1 x2 x3 β t u) := by
  rw [val_main_call0_v4_apply, val_main_call0_v3_apply, max_idx, rowMax_again]

/-! ## The shifted row, the sum of its exponentials, the logarithm -/

/-- The shifted logit at (β, t, u, v) is L[v] - M. -/
theorem shifted_apply (β : Fin 4) (t : Fin 256) (u : Fin 64) (v : Fin 1024) :
    val_main_call0_v5 (F := Ideal) x0 x1 x2 x3 (ix4 β t u v)
      = logitRow x0 x1 x2 x3 β t u v - Cert.Spec.rowMax (logitRow x0 x1 x2 x3 β t u) := by
  rw [val_main_call0_v5_apply, rowMax_spread]
  exact Ideal.subf_def _ _

/-- The k-th summand of the sum at (β, t, u) is the entry (β, t, u, k). -/
theorem row_idx (β : Fin 4) (t : Fin 256) (u : Fin 64) (k : Fin 1024) :
    idx_main_call0_v7 (ix3 β t u) k = ix4 β t u k :=
  funext fun a => Fin.ext (by match a with | ⟨0, _⟩ => rfl | ⟨1, _⟩ => rfl | ⟨2, _⟩ => rfl | ⟨3, _⟩ => rfl)

/-- The sum over the last axis starts from zero, so at (β, t, u) it is Σ_k exp (L[k] - M). -/
theorem expSum_apply (β : Fin 4) (t : Fin 256) (u : Fin 64) :
    val_main_call0_v7 (F := Ideal) x0 x1 x2 x3 (ix3 β t u)
      = ∑ k : Fin 1024, Ideal.exp (logitRow x0 x1 x2 x3 β t u k - Cert.Spec.rowMax (logitRow x0 x1 x2 x3 β t u)) := by
  rw [val_main_call0_v7_apply, val_main_call0_cst_1_apply, Ideal.ofBits_def, Ideal.ofBits_zero_f32, zero_add]
  refine Finset.sum_congr rfl fun k _ => ?_
  rw [row_idx, val_main_call0_v6_apply, shifted_apply]
  exact Ideal.hostUnary_exp_def _

/-- Broadcast back along the last axis, the sum at (β, t, u, v) is the one of the row (β, t, u). -/
theorem sum_idx (β : Fin 4) (t : Fin 256) (u : Fin 64) (v : Fin 1024) :
    idx_main_call0_v8 (idx_main_call0_v10 (ix4 β t u v)) = ix3 β t u :=
  funext fun a => Fin.ext (by match a with | ⟨0, _⟩ => rfl | ⟨1, _⟩ => rfl | ⟨2, _⟩ => rfl)

/-- The logarithm of that sum, at every v of the row. -/
theorem logSum_apply (β : Fin 4) (t : Fin 256) (u : Fin 64) (v : Fin 1024) :
    val_main_call0_v10 (F := Ideal) x0 x1 x2 x3 (ix4 β t u v)
      = Ideal.log (∑ k : Fin 1024,
          Ideal.exp (logitRow x0 x1 x2 x3 β t u k - Cert.Spec.rowMax (logitRow x0 x1 x2 x3 β t u))) := by
  rw [val_main_call0_v10_apply, val_main_call0_v9_apply, val_main_call0_v8_apply, sum_idx, expSum_apply]
  exact Ideal.hostUnary_log_def _

/-- The last stage at (β, t, u, v) is the log-softmax of the row of logits at v. -/
theorem logSoftmax_apply (β : Fin 4) (t : Fin 256) (u : Fin 64) (v : Fin 1024) :
    val_main_v12 (F := Ideal) x0 x1 x2 x3 (ix4 β t u v)
      = Cert.Spec.logSoftmaxRow (logitRow x0 x1 x2 x3 β t u) v := by
  rw [val_main_v12_apply, shifted_apply, logSum_apply]
  unfold Cert.Spec.logSoftmaxRow
  exact Ideal.subf_def _ _

/-- The reference's last stage, as a function of any four argument arrays, is the specification's result. -/
theorem result_eq (x0 : (⟨S4x256x512, .f32⟩ : BufTy).Contents (Elt Ideal)) (x1 : (⟨S4x64x512, .f32⟩ : BufTy).Contents (Elt Ideal))
    (x2 : (⟨S1024x1024, .f32⟩ : BufTy).Contents (Elt Ideal)) (x3 : (⟨S1024, .f32⟩ : BufTy).Contents (Elt Ideal)) :
    val_main_v12 (F := Ideal) x0 x1 x2 x3 = Cert.Spec.result x0 x1 x2 x3 := by
  funext i
  obtain ⟨β, t, u, v, rfl⟩ : ∃ (β : Fin 4) (t : Fin 256) (u : Fin 64) (v : Fin 1024), i = ix4 β t u v :=
    ⟨i 0, i 1, i 2, i 3, eq_ix4 i⟩
  rw [logSoftmax_apply, logitRow_eq]
  rfl

end Cert.ReferenceIdeal.RefValue

end
-- ==== Proof.lean ====
/-
  The certificate of the projected log-softmax kernel against its jnp reference.

  Both programs compute, from x : [4, 256, 512], y : [4, 64, 512], W : [1024, 1024] and b : [1024], the log-softmax
  along the last axis of L[β, t, u, v] = (Σ_k x[β, t, k] · W[v, k] + Σ_k y[β, u, k] · W[v, 512 + k]) + b[v]
  (Proof/Spec.lean). The kernel program reaches it in three launches among host layout operations: two tiled products
  over the 512 shared entries, whose bf16 narrowing is the identity on the extended reals (Proof/MatmulRegions.lean), and
  a tiled row-wise log-softmax of the broadcast sum (Proof/SoftmaxRegion.lean), composed through the host reshapes,
  slices and transposes in Proof/KernelValue.lean. The reference contracts x and y with the two halves of W directly,
  broadcasts, adds and applies the same row-wise steps, with one more maximum against -∞ that changes nothing
  (Proof/RefValue.lean over the reference's run). No law beyond commutativity of the sum's terms is used, so the
  precondition (finite inputs) is never opened. The three frames are the programs' runs with the results dropped, and
  the ideal pass rewrote nothing, so there is nothing to preserve.
-/
import proofs.«163983_j14903536517746_1_alg».proof.Defs
import proofs.«163983_j14903536517746_1_alg».proof.Proof.Gen.Kernel
import proofs.«163983_j14903536517746_1_alg».proof.Proof.Gen.Kernel.Skeleton
import proofs.«163983_j14903536517746_1_alg».proof.Proof.Gen.Kernel.Launch
import proofs.«163983_j14903536517746_1_alg».proof.Proof.Gen.Kernel.Points
import proofs.«163983_j14903536517746_1_alg».proof.Proof.Gen.Kernel.Frame
import proofs.«163983_j14903536517746_1_alg».proof.Proof.Gen.KernelIdeal
import proofs.«163983_j14903536517746_1_alg».proof.Proof.Gen.KernelIdeal.Skeleton
import proofs.«163983_j14903536517746_1_alg».proof.Proof.Gen.KernelIdeal.Launch
import proofs.«163983_j14903536517746_1_alg».proof.Proof.Gen.KernelIdeal.Points
import proofs.«163983_j14903536517746_1_alg».proof.Proof.Gen.KernelIdeal.Frame
import proofs.«163983_j14903536517746_1_alg».proof.Proof.Gen.ReferenceIdeal
import proofs.«163983_j14903536517746_1_alg».proof.Proof.Gen.Pre_finite_inputs
import proofs.«163983_j14903536517746_1_alg».proof.Proof.KernelValue
import proofs.«163983_j14903536517746_1_alg».proof.Proof.RefRun
import proofs.«163983_j14903536517746_1_alg».proof.Proof.RefRead
import proofs.«163983_j14903536517746_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The ideal pass rewrote no operation. -/
theorem preserves : Cert.preserves_Kernel_KernelIdeal := trivial

/-- From memories agreeing on the four arguments both programs end with the specification's result of those
    arguments: the kernel program by its three launches read back, the reference by its stages read at an index. -/
theorem algebraic : Cert.algebraic_KernelIdeal_ReferenceIdeal := by
  intro m ρ m' ρ' _ hagree
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.ResultValue.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v12_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
